-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x256x16 : Shape := ⟨3, ![8192, 256, 16]⟩
abbrev S8192x256 : Shape := ⟨2, ![8192, 256]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x8192 .f32) (main_arg1 : IVec S8192x256x16 32) (main_arg2 : FVec F S8192x256 .f32) (main_arg3 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x256 .f32 := Host.absf main_arg2
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x8192 : Shape := ⟨2, ![4096, 8192]⟩
abbrev S8192x256x16 : Shape := ⟨3, ![8192, 256, 16]⟩
abbrev S8192x256 : Shape := ⟨2, ![8192, 256]⟩
abbrev S8192 : Shape := ⟨1, ![8192]⟩
abbrev S8192x16x256 : Shape := ⟨3, ![8192, 16, 256]⟩
abbrev S8192x32x256 : Shape := ⟨3, ![8192, 32, 256]⟩
abbrev S128x16x256 : Shape := ⟨3, ![128, 16, 256]⟩
abbrev S128x256 : Shape := ⟨2, ![128, 256]⟩
abbrev S128x32x256 : Shape := ⟨3, ![128, 32, 256]⟩
abbrev S128x1x256 : Shape := ⟨3, ![128, 1, 256]⟩
abbrev S8192x8192 : Shape := ⟨2, ![8192, 8192]⟩
abbrev S4096x256x32 : Shape := ⟨3, ![4096, 256, 32]⟩
abbrev S4096x32x256 : Shape := ⟨3, ![4096, 32, 256]⟩
abbrev S1x8192 : Shape := ⟨2, ![1, 8192]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x8192, .f32⟩
  | .hbm, ⟨1, _⟩ => ⟨S8192x256x16, .i32⟩
  | .hbm, ⟨2, _⟩ => ⟨S8192x256, .f32⟩
  | .hbm, ⟨3, _⟩ => ⟨S8192, .f32⟩
  | .hbm, ⟨4, _⟩ => ⟨S8192x16x256, .i32⟩
  | .hbm, ⟨5, _⟩ => ⟨S8192x32x256, .bf16⟩
  | .hbm, ⟨6, _⟩ => ⟨S8192x8192, .bf16⟩
  | .hbm, ⟨7, _⟩ => ⟨S4096x8192, .bf16⟩
  | .hbm, ⟨8, _⟩ => ⟨S4096x256x32, .bf16⟩
  | .hbm, ⟨9, _⟩ => ⟨S4096x32x256, .bf16⟩
  | .hbm, ⟨10, _⟩ => ⟨S4096x8192, .bf16⟩
  | .hbm, ⟨11, _⟩ => ⟨S1x8192, .f32⟩
  | .hbm, ⟨12, _⟩ => ⟨S4096x8192, .f32⟩
  | .local _ .vmem, ⟨0, _⟩ => ⟨S128x16x256, .i32⟩
  | .local _ .vmem, ⟨1, _⟩ => ⟨S128x16x256, .i32⟩
  | .local _ .vmem, ⟨2, _⟩ => ⟨S128x256, .f32⟩
  | .local _ .vmem, ⟨3, _⟩ => ⟨S128x256, .f32⟩
  | .local _ .vmem, ⟨4, _⟩ => ⟨S128x32x256, .bf16⟩
  | .local _ .vmem, ⟨5, _⟩ => ⟨S128x32x256, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S8192x256x16_S8192x16x256_0_2_1 : S8192x256x16.Transposes [0, 2, 1] S8192x16x256
  inb_S128x16x256_S128x16x256_0_0_0 : ∀ a, (![0, 0, 0] : Fin 3 → Nat) a + S128x16x256.size a ≤ S128x16x256.size a
  h_S128x16x256 : 0 < S128x16x256.numel
  shapeCasts_S128x16x256_S128x16x256 : S128x16x256.ShapeCasts S128x16x256
  concatenates_S128x16x256_S128x16x256_S128x32x256_d1 : Shape.Concatenates [S128x16x256, S128x16x256] S128x32x256 1
  inb_S128x256_S128x256_0_0 : ∀ a, (![0, 0] : Fin 2 → Nat) a + S128x256.size a ≤ S128x256.size a
  h_S128x256 : 0 < S128x256.numel
  shapeCasts_S128x256_S128x1x256 : S128x256.ShapeCasts S128x1x256
  broadcasts_S128x1x256_S128x32x256 : S128x1x256.Broadcasts S128x32x256
  bitsLt_bf16_f32 : FTy.bits .bf16 < FTy.bits .f32
  inb_S128x32x256_S128x32x256_0_0_0 : ∀ a, (![0, 0, 0] : Fin 3 → Nat) a + S128x32x256.size a ≤ S128x32x256.size a
  h_S128x32x256 : 0 < S128x32x256.numel
  packedbf16_S128x32x256_S128x32x256_0_0_0 : (Rect.unit (s := S128x32x256) ![0, 0, 0] S128x32x256.size inb_S128x32x256_S128x32x256_0_0_0).PackedRows (EltTy.packing .bf16)
  shapeCasts_S8192x32x256_S8192x8192 : S8192x32x256.ShapeCasts S8192x8192
  shapeCasts_S4096x8192_S4096x256x32 : S4096x8192.ShapeCasts S4096x256x32
  transposes_S4096x256x32_S4096x32x256_0_2_1 : S4096x256x32.Transposes [0, 2, 1] S4096x32x256
  shapeCasts_S4096x32x256_S4096x8192 : S4096x32x256.ShapeCasts S4096x8192
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x256.size a ≤ S8192x16x256.size a
  hwx0_0 : ∀ i : grid0.Coords, EltTy.bits .i32 = 32 ∨ (Rect.block (s := S8192x16x256) S128x16x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S8192x256.size a
  hwx0_1 : ∀ i : grid0.Coords, EltTy.bits .f32 = 32 ∨ (Rect.block (s := S8192x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x256.size a ≤ S8192x32x256.size a
  hwx0_2 : ∀ i : grid0.Coords, EltTy.bits .bf16 = 32 ∨ (Rect.block (s := S8192x32x256) S128x32x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x8192.size a
  hwx1_0 : ∀ i : grid1.Coords, EltTy.bits .bf16 = 32 ∨ (Rect.block (s := S4096x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x8192.size a
  hwx1_1 : ∀ i : grid1.Coords, EltTy.bits .bf16 = 32 ∨ (Rect.block (s := S8192x8192) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x8192.size a
  hwx1_3 : ∀ i : grid1.Coords, EltTy.bits .f32 = 32 ∨ (Rect.block (s := S4096x8192) S1024x1024.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S128x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192x256x16 : Shape := ⟨3, ![8192, 256, 16]⟩
abbrev S8192x256 : Shape := ⟨2, ![8192, 256]⟩
abbrev S8192 : Shape := ⟨1, ![8192]⟩
abbrev S_ : Shape := ⟨0, ![]⟩
abbrev S8192x256x32 : Shape := ⟨3, ![8192, 256, 32]⟩
abbrev S8192x256x1 : Shape := ⟨3, ![8192, 256, 1]⟩
abbrev S8192x8192 : Shape := ⟨2, ![8192, 8192]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x256x16, .i32⟩
  | .hbm, ⟨2, _⟩ => ⟨S8192x256, .f32⟩
  | .hbm, ⟨3, _⟩ => ⟨S8192, .f32⟩
  | .hbm, ⟨4, _⟩ => ⟨S_, .i32⟩
  | .hbm, ⟨5, _⟩ => ⟨S8192x256x16, .i32⟩
  | .hbm, ⟨6, _⟩ => ⟨S8192x256x16, .i32⟩
  | .hbm, ⟨7, _⟩ => ⟨S_, .i32⟩
  | .hbm, ⟨8, _⟩ => ⟨S8192x256x16, .i32⟩
  | .hbm, ⟨9, _⟩ => ⟨S8192x256x16, .i32⟩
  | .hbm, ⟨10, _⟩ => ⟨S_, .i32⟩
  | .hbm, ⟨11, _⟩ => ⟨S8192x256x16, .i32⟩
  | .hbm, ⟨12, _⟩ => ⟨S8192x256x16, .i32⟩
  | .hbm, ⟨13, _⟩ => ⟨S8192x256x32, .i32⟩
  | .hbm, ⟨14, _⟩ => ⟨S8192x256x32, .f32⟩
  | .hbm, ⟨15, _⟩ => ⟨S_, .f32⟩
  | .hbm, ⟨16, _⟩ => ⟨S8192x256x32, .f32⟩
  | .hbm, ⟨17, _⟩ => ⟨S8192x256x32, .f32⟩
  | .hbm, ⟨18, _⟩ => ⟨S8192x256x1, .f32⟩
  | .hbm, ⟨19, _⟩ => ⟨S8192x256x32, .f32⟩
  | .hbm, ⟨20, _⟩ => ⟨S8192x256x32, .f32⟩
  | .hbm, ⟨21, _⟩ => ⟨S8192x8192, .f32⟩
  | .hbm, ⟨22, _⟩ => ⟨S4096x8192, .f32⟩
  | .hbm, ⟨23, _⟩ => ⟨S1x8192, .f32⟩
  | .hbm, ⟨24, _⟩ => ⟨S4096x8192, .f32⟩
  | .hbm, ⟨25, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8192x256x16 : S_.BroadcastsInDim S8192x256x16 (![] : Fin 0 → Fin S8192x256x16.rank)
  concatenates_S8192x256x16_S8192x256x16_S8192x256x32_d2 : Shape.Concatenates [S8192x256x16, S8192x256x16] S8192x256x32 2
  bcast_S_S8192x256x32 : S_.BroadcastsInDim S8192x256x32 (![] : Fin 0 → Fin S8192x256x32.rank)
  bcast_S8192x256_S8192x256x1_0_1 : S8192x256.BroadcastsInDim S8192x256x1 (![0, 1] : Fin 2 → Fin S8192x256x1.rank)
  bcast_S8192x256x1_S8192x256x32_0_1_2 : S8192x256x1.BroadcastsInDim S8192x256x32 (![0, 1, 2] : Fin 3 → Fin S8192x256x32.rank)
  shapeCasts_S8192x256x32_S8192x8192 : S8192x256x32.ShapeCasts S8192x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x8192_S8192x8192_S4096x8192_1_1_0_0_n_n_wf : DotDims.WF S4096x8192 S8192x8192 S4096x8192 [1] [1] [0] [0] [] []

variable [Facts₀]

def dot_S4096x8192_S8192x8192_S4096x8192_1_1_0_0_n_n : DotDims S4096x8192 S8192x8192 S4096x8192 where
  lhsContracting := [1]
  rhsContracting := [1]
  lhsNonContracting := [0]
  rhsNonContracting := [0]
  lhsBatch := []
  rhsBatch := []
  wf := dot_S4096x8192_S8192x8192_S4096x8192_1_1_0_0_n_n_wf

class Facts : Prop extends Facts₀ where

variable [Facts]
-- ==== Proof.KData.lean ====
/-
  The proof data of the two pipelined regions, stated over a PARAMETER `V`: the TensorCore's buffer contents
  when the region is entered.

  Region 0 (the nibble unpacking): at grid point `t` the body reads the 128 rows `t·128 … t·128+127` of the packed
  words (laid out [row, half, block]) and of the scales, and stores into the output block the value
  `(nibble − 8) · scale`; the block is written back at every point. Nothing is carried between points.

  Region 1 (the product): the grid is (i, j, k) ∈ 4 × 8 × 4 with `k` innermost, so the point `t` has `k = t % 4`.
  A scratch accumulator is carried across the four points of one (i, j): at `k = 0` it is reset to zero, at every
  point the product of the current blocks of the two operands is added to it, and at `k = 3` the accumulator plus the
  broadcast bias row is stored into the output block, which is written back there and only there. `accAt n` is what
  the scratch holds after point `n`, by recursion on the point; the region's invariant before point `n + 1` owns
  the scratch at `accAt n`.
-/
import proofs.«407369_j88802743812109_3_alg».proof.Proof.Gen.Kernel.Launch
import proofs.«407369_j88802743812109_3_alg».proof.Proof.Gen.Kernel.Skeleton
import proofs.«407369_j88802743812109_3_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' block at point `t`: rows `t·128 …`, all 16 halves, all 256 blocks. -/
abbrev qblk (c : Dev nD) (t : Fin cfg0.N) : Vec F S128x16x256 .i32 := iblk0 V c 0 t
/-- The scales' block at point `t`. -/
abbrev sblk (c : Dev nD) (t : Fin cfg0.N) : Vec F S128x256 .f32 := iblk0 V c 1 t

/-- Region 0's proof data: the arrays as found; after the body each input buffer still at its block and the output
    buffer at the unpacked, shifted and scaled values of the two input blocks; the invariant the scoped rest and
    the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (qblk V c t) (sblk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (qblk V c t) (sblk V c t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's block at point `t = (i, j, k)`: rows `i·1024 …`, columns `k·2048 …`. -/
abbrev xblk (c : Dev nD) (t : Fin cfg1.N) : Vec F S1024x2048 .bf16 := iblk1 V c 0 t
/-- The right operand's block: rows `j·1024 …`, columns `k·2048 …`. -/
abbrev wblk (c : Dev nD) (t : Fin cfg1.N) : Vec F S1024x2048 .bf16 := iblk1 V c 1 t
/-- The bias row's block: columns `j·1024 …`. -/
abbrev bblk (c : Dev nD) (t : Fin cfg1.N) : Vec F S1x1024 .f32 := iblk1 V c 2 t

/-- The carried scratch, as the body names it. -/
abbrev scM : Memref sig .tc .vmem S1024x1024 .f32 := Memref.whole cc1_scratch0

/-- What the scratch holds after point `n`: the blocks' product added to zero where `k = n % 4 = 0`, to what the
    point before left elsewhere. -/
def accAt (c : Dev nD) : (n : ℕ) → n < cfg1.N → Vec F S1024x1024 .f32
  | 0, h => k1_pay2 (xblk V c ⟨0, h⟩) (wblk V c ⟨0, h⟩) (k1_pay1 (F := F))
  | n + 1, h =>
    if (n + 1) % 4 = 0 then k1_pay2 (xblk V c ⟨n + 1, h⟩) (wblk V c ⟨n + 1, h⟩) (k1_pay1 (F := F))
    else k1_pay2 (xblk V c ⟨n + 1, h⟩) (wblk V c ⟨n + 1, h⟩) (accAt c n (Nat.lt_of_succ_lt h))

/-- One step of the recursion, past the first point. -/
theorem accAt_succ (c : Dev nD) (n : ℕ) (h : n + 1 < cfg1.N) :
    accAt V c (n + 1) h =
      if (n + 1) % 4 = 0 then k1_pay2 (xblk V c ⟨n + 1, h⟩) (wblk V c ⟨n + 1, h⟩) (k1_pay1 (F := F))
      else k1_pay2 (xblk V c ⟨n + 1, h⟩) (wblk V c ⟨n + 1, h⟩) (accAt V c n (Nat.lt_of_succ_lt h)) := rfl

theorem accAt_reset (c : Dev nD) (t : Fin cfg1.N) (h : t.val % 4 = 0) :
    accAt V c t.val t.isLt = k1_pay2 (xblk V c t) (wblk V c t) (k1_pay1 (F := F)) := by
  obtain ⟨n, hn⟩ := t
  cases n with
  | zero => rfl
  | succ n => show accAt V c (n + 1) hn = _; rw [accAt_succ, if_pos h]

theorem accAt_step (c : Dev nD) (t : Fin cfg1.N) (h : ¬ t.val % 4 = 0) :
    accAt V c t.val t.isLt = k1_pay2 (xblk V c t) (wblk V c t)
      (accAt V c (t.val - 1) (Nat.lt_of_le_of_lt (Nat.sub_le _ _) t.isLt)) := by
  obtain ⟨n, hn⟩ := t
  cases n with
  | zero => exact absurd rfl h
  | succ n => show accAt V c (n + 1) hn = _; rw [accAt_succ, if_neg h]; rfl

/-- The scoped buffers region 1 neither stages nor names — region 0's six staging buffers, each at some contents —
    beside an assertion `S` about the scratch. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's scoped rest is those six beside the scratch at some contents. -/
theorem scopedRest1_with (c : Dev nD) :
    (Pipeline.scopedRest (Ix := Unit) (Name := ℕ) (U := UR sig nD τ) (Lvl := ℕ) (Val := Elt F) spec1 c : sProp 𝕄)
      = restWith c (iprop(∃ f : Buf (Elt F) ((c : Thread nD τ).loc cc1_scratch0), ((c : Thread nD τ).loc cc1_scratch0) ↦{fullShare} f)) :=
  scopedRest1_eq c

/-- Region 1's invariant before point `n`: at the first point the scoped rest and the generator register, as the
    region is entered; before point `n + 1` the same with the scratch owned at what point `n` left. -/
def PhiS1 (c : Dev nD) : (n : ℕ) → n ≤ cfg1.N → sProp 𝕄
  | 0, _ => Pipeline.ΦA spec1 c
  | n + 1, h => iprop(restWith c (owns (c : Thread nD τ) scM fullShare (accAt V c n h)) ∗ ∃ r, prngReg c r)

theorem PhiS1_zero (c : Dev nD) (h : 0 ≤ cfg1.N) : PhiS1 V c 0 h = Pipeline.ΦA spec1 c := rfl
theorem PhiS1_succ (c : Dev nD) (n : ℕ) (h : n < cfg1.N) :
    PhiS1 V c (n + 1) h = iprop(restWith c (owns (c : Thread nD τ) scM fullShare (accAt V c n h)) ∗ ∃ r, prngReg c r) := rfl

/-- Region 1's proof data: the arrays as found; after the body each input buffer still at its block; the output
    buffer, where the body stores it (`k = 3`; elsewhere the point is idle for it and the field is not read), at the
    accumulator plus the bias row; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (bblk V c t) (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (bblk V c t) (accAt V c t.val t.isLt) := by dsimp only [dat1]
theorem Phi1_castSucc (c : Dev nD) (t : Fin cfg1.N) :
    (dat1 V c).Φ t.castSucc = PhiS1 V c t.val (Nat.le_of_lt t.isLt) := rfl
theorem Phi1_succ (c : Dev nD) (t : Fin cfg1.N) :
    (dat1 V c).Φ t.succ = PhiS1 V c (t.val + 1) t.isLt := rfl

end Cert.Kernel.Hand

end
-- ==== Proof.KFold.lean ====
/-
  The buffer contents at each boundary of the program, folded from the launch memory `m`:
  launch → (the transposition of the packed words) → region 0 → (the reshapes, the narrowing and the transposition that
  lay the two operands out column-permuted, and the bias as a row) → region 1. A host stretch acts by
  `StableHlo.after`; a region leaves its windows' arrays at what its write-backs fold to (`Dat.arrAt … N`) and every
  other buffer as it found it.
-/
import proofs.«407369_j88802743812109_3_alg».proof.Proof.KData
import Idealize.ShloMosaic.Lib.Pipeline.FrameSuffix

set_option maxRecDepth 16384

noncomputable section

namespace Cert.Kernel.Hand

open Idealize.ShloMosaic Idealize.ShloMosaic.TcCoe
open Idealize.SL Idealize.SL.Sem
open Idealize.ShloMosaic.Pipeline (Dat)
open Cert.Kernel.Gen

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the first host stretch: region 0's entry. -/
abbrev W1 : Dev nD → Valuation τ sig (Elt F) := fun c => StableHlo.after hostOps0 (W0 m c)
/-- The same read at the TensorCore's references: what region 0's proof data take. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Cert.Kernel.Hand

end
-- ==== Proof.KBody0.lean ====
/-
  Region 0's body obligation.

  At a grid point the kernel body loads the whole staging buffer of the packed words, the whole staging buffer of the
  scales and (a value it never uses) the whole staging buffer of the output, then stores into the whole output buffer
  the payload of the two loaded values: per element, the low or the high nibble of the word, minus eight, times the
  row's scale, rounded to bfloat16. So from "the inputs' buffers hold their blocks, the output's buffer holds anything"
  it runs to "the inputs' buffers as they were, the output's buffer at the payload of the two blocks"; the region's
  invariant and what the core owes pass through unread.
-/
import proofs.«407369_j88802743812109_3_alg».proof.Proof.KData
import Idealize.ShloMosaic.Lib.Pipeline.FrameBody
import Idealize.ShloMosaic.Lib.Pipeline.Value
import Idealize.ShloMosaic.Lib.Tactic
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The packed words' current staging buffer holds the words' block at every point, whether or not the pipeline
    fetched it there: the body leaves the block in place, and an unfetched block is the previous point's. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The same of the scales' staging buffer. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

/-- The whole-buffer rectangles start at offset zero on every axis. -/
private theorem off3_zero : (![0, 0, 0] : Fin 3 → Nat) = fun _ => 0 := funext fun a => by fin_cases a <;> rfl
private theorem off2_zero : (![0, 0] : Fin 2 → Nat) = fun _ => 0 := funext fun a => by fin_cases a <;> rfl

set_option maxHeartbeats 1000000 in
/-- The kernel body on whole staging memrefs: the words' at contents `x`, the scales' at `s`, the output's at anything.
    It runs to the continuation with the inputs' as they were and the output's at the payload of `x` and `s`: the
    output buffer is first loaded (the value is dropped), then one store through the whole-buffer rectangle at offset
    zero leaves its payload whatever was there, and the payload's two loads through such rectangles read `x` and `s`. -/
theorem sound_kernel0 (c : Dev nD) (E : Set ℕ) (i : grid0.Coords)
    (arg1 : Memref sig .tc .vmem S128x16x256 .i32) (harg1 : arg1.IsWhole)
    (arg2 : Memref sig .tc .vmem S128x256 .f32) (harg2 : arg2.IsWhole)
    (arg3 : Memref sig .tc .vmem S128x32x256 .bf16) (harg3 : arg3.IsWhole)
    (x : Vec F S128x16x256 .i32) (s : Vec F S128x256 .f32) (K : PUnit → sProp 𝕄) :
    iprop(owns (c : Thread nD τ) arg1 fullShare x ∗ owns (c : Thread nD τ) arg2 fullShare s
        ∗ (∃ d, owns (c : Thread nD τ) arg3 fullShare d)
        ∗ (iprop(owns (c : Thread nD τ) arg1 fullShare x ∗ owns (c : Thread nD τ) arg2 fullShare s
            ∗ owns (c : Thread nD τ) arg3 fullShare (k0_pay1 x s)) -∗ K ⟨⟩))
      ⊢ wp frame (wpE (defs₀ (F := F)) Variants.none c none) E
          (cc0__dequant_kernel i arg1 harg1 arg2 harg2 arg3 harg3) K := by
  simp only [cc0__dequant_kernel_eq_skeleton]; unfold cc0__dequant_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _
    (fun y => ⟨_, List.mem_singleton_self _, View.mem_set_unit_zero off3_zero inb_S128x32x256_S128x32x256_0_0_0 y⟩)]
  rw [View.canon_unit_zero off3_zero, View.readAt_eq_ld, View.readAt_eq_ld,
    View.ld_unit_zero off3_zero, View.ld_unit_zero off2_zero]

/-! ## The body obligation, at a generic point -/

/-- What the body is called with at point `t`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's buffer holds something, so the body's
    triple applies at the two blocks; the invariant and what the core owes are the same before and after. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (qblk V c t) (sblk V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 0's body obligation, at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1 (the product): the body obligation and the two ends of its invariant.

  The grid is (i, j, k) ∈ 4 × 8 × 4 with `k` innermost, so the point `t` has `k = t % 4`, and the body has three
  control cases. Where `k = 0` it stores zeros into the scratch accumulator, then adds the product of the two operand
  blocks; where `k ∈ {1, 2}` it adds the product to what the scratch held; where `k = 3` it adds the product and then
  stores the accumulator plus the broadcast bias row into the output buffer. Each case is one triple over arbitrary
  contents of the buffers; a store through the whole-buffer rectangle leaves its payload, and a load through it after
  such a store reads the payload back. At a generic point the triples are applied by cases on `t % 4`: the inputs'
  buffers hold their blocks, the invariant hands over the scratch at what the point before left (at anything at the
  first point) and takes it back at `accAt` of this point, by that recursion's two equations; the output buffer is
  handed back untouched where `k ≠ 3`.
-/
import proofs.«407369_j88802743812109_3_alg».proof.Proof.KData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions and the whole-buffer rectangle -/

/-- The zero offsets of a rank-2 block, spelt as the body's rectangles spell them. -/
theorem hz2 : (![0, 0] : Fin 2 → Nat) = fun _ => 0 := by
  funext a; fin_cases a <;> rfl

/-- The reset's condition, as the body computes it from the innermost coordinate. -/
abbrev condR (i : grid1.Coords) : Prop :=
  (Scalar.cmpi .ne (Scalar.extui (Scalar.cmpi .eq (BitVec.ofNat 32 (i 2).val) 0#32)) 0#32) = 1#1
/-- The output store's condition. -/
abbrev condO (i : grid1.Coords) : Prop := k1_cond2 i = 1#1

/-- The reset happens exactly at the points with `k = 0`, -/
theorem hcondR : ∀ t : Fin cfg1.N, condR (grid1.coords t) ↔ t.val % 4 = 0 :=
  (by decide +kernel : ∀ t : Fin grid1.N, condR (grid1.coords t) ↔ t.val % 4 = 0)
/-- the output store exactly at those with `k = 3`. -/
theorem hcondO : ∀ t : Fin cfg1.N, condO (grid1.coords t) ↔ t.val % 4 = 3 :=
  (by decide +kernel : ∀ t : Fin grid1.N, condO (grid1.coords t) ↔ t.val % 4 = 3)

/-- The body's one rectangle on a 1024 × 1024 buffer is all of it. -/
theorem mem_whole_acc (y : S1024x1024.Idx) :
    y ∈ (Rect.unit (s := S1024x1024) ![0, 0] S1024x1024.size inb_S1024x1024_S1024x1024_0_0).set :=
  View.mem_set_unit_zero (S := S1024x1024) hz2 inb_S1024x1024_S1024x1024_0_0 y

/-- A store through that rectangle, last, leaves its payload in the buffer, whatever the earlier stores were and
    whatever the buffer held. -/
theorem read_store_acc (v : View sig .tc .vmem S1024x1024 .f32) (f : v.ty.Contents (Elt F))
    (w : Vec F S1024x1024 .f32) (L : List (View.Piece (Elt F) S1024x1024 .f32)) :
    v.read (Elt F) (v.writes (Elt F) f
      ((⟨Rect.unit (s := S1024x1024) ![0, 0] S1024x1024.size inb_S1024x1024_S1024x1024_0_0, w⟩ : View.Piece (Elt F) S1024x1024 .f32) :: L)) = w :=
  (View.read_writes_eq_canon v f
      ((⟨Rect.unit (s := S1024x1024) ![0, 0] S1024x1024.size inb_S1024x1024_S1024x1024_0_0, w⟩ : View.Piece (Elt F) S1024x1024 .f32) :: L)
      (fun y => ⟨⟨Rect.unit (s := S1024x1024) ![0, 0] S1024x1024.size inb_S1024x1024_S1024x1024_0_0, w⟩, List.mem_cons_self, mem_whole_acc y⟩)).trans
    (View.canon_cons_unit_zero (S := S1024x1024) hz2 inb_S1024x1024_S1024x1024_0_0 w L)

/-- A load through it after one such store reads the payload back. -/
theorem readCov_store_acc (v : View sig .tc .vmem S1024x1024 .f32) (w : Vec F S1024x1024 .f32) :
    v.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w :=
  View.readCov_unit_zero (S := S1024x1024) v hz2 inb_S1024x1024_S1024x1024_0_0 w

/-- A load of all of a whole memref reads what it holds. -/
theorem readAt_acc {m : Memref sig .tc .vmem S1024x1024 .f32} (h : m.IsWhole) (X : Vec F S1024x1024 .f32) :
    m.view.readAt (Elt F) (Rect.unit (s := S1024x1024) ![0, 0] S1024x1024.size inb_S1024x1024_S1024x1024_0_0).toLoadRect (h.unread X) = X := by
  rw [View.readAt_eq_ld, h.read_unread, View.ld_unit_zero (S := S1024x1024) hz2]
theorem readAt_opd {m : Memref sig .tc .vmem S1024x2048 .bf16} (h : m.IsWhole) (X : Vec F S1024x2048 .bf16) :
    m.view.readAt (Elt F) (Rect.unit (s := S1024x2048) ![0, 0] S1024x2048.size inb_S1024x2048_S1024x2048_0_0).toLoadRect (h.unread X) = X := by
  rw [View.readAt_eq_ld, h.read_unread, View.ld_unit_zero (S := S1024x2048) hz2]
theorem readAt_bias {m : Memref sig .tc .vmem S1x1024 .f32} (h : m.IsWhole) (X : Vec F S1x1024 .f32) :
    m.view.readAt (Elt F) (Rect.unit (s := S1x1024) ![0, 0] S1x1024.size inb_S1x1024_S1x1024_0_0).toLoadRect (h.unread X) = X := by
  rw [View.readAt_eq_ld, h.read_unread, View.ld_unit_zero (S := S1x1024) hz2]

/-! ## The body's three cases, on any whole memrefs -/

set_option maxHeartbeats 1000000 in
/-- A point with `k = 0`: the scratch, at anything, is reset to zeros, and the product of the two operand blocks is
    added to those zeros (the load after the reset reads the zeros back). The operands are handed back as found; the
    bias and output buffers are not touched. -/
theorem run_first (c : Dev nD) (i : grid1.Coords)
    (arg3 : Memref sig .tc .vmem S1024x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hR : condR i) (hO : ¬condO i)
    (xb wb : Vec F S1024x2048 .bf16)
    (E : Set ℕ) (K : PUnit → sProp 𝕄) :
    iprop(owns (c : Thread nD τ) arg3 fullShare xb ∗ owns (c : Thread nD τ) arg4 fullShare wb
        ∗ (∃ d, owns (c : Thread nD τ) arg7 fullShare d)
        ∗ (iprop(owns (c : Thread nD τ) arg3 fullShare xb ∗ owns (c : Thread nD τ) arg4 fullShare wb
            ∗ owns (c : Thread nD τ) arg7 fullShare (k1_pay2 xb wb (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  obtain rfl := harg3.eq_unread hf3; obtain rfl := harg4.eq_unread hf4
  sl_exec (disch := first | exact hR | exact hO)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [read_store_acc, readAt_opd harg3, readAt_opd harg4, readCov_store_acc]

set_option maxHeartbeats 1000000 in
/-- A point with `k ∈ {1, 2}`: neither branch is taken. The product of the two operand blocks is added to what the
    scratch held; the operands are handed back as found, the bias and output buffers are not touched. -/
theorem run_mid (c : Dev nD) (i : grid1.Coords)
    (arg3 : Memref sig .tc .vmem S1024x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hR : ¬condR i) (hO : ¬condO i)
    (xb wb : Vec F S1024x2048 .bf16) (prev : Vec F S1024x1024 .f32)
    (E : Set ℕ) (K : PUnit → sProp 𝕄) :
    iprop(owns (c : Thread nD τ) arg3 fullShare xb ∗ owns (c : Thread nD τ) arg4 fullShare wb
        ∗ owns (c : Thread nD τ) arg7 fullShare prev
        ∗ (iprop(owns (c : Thread nD τ) arg3 fullShare xb ∗ owns (c : Thread nD τ) arg4 fullShare wb
            ∗ owns (c : Thread nD τ) arg7 fullShare (k1_pay2 xb wb prev)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hR | exact hO)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [read_store_acc, readAt_opd harg3, readAt_opd harg4, readAt_acc harg7]

set_option maxHeartbeats 1000000 in
/-- A point with `k = 3`: the product is added to what the scratch held, and the output buffer, at anything, receives
    that sum (read back from the scratch) plus the broadcast bias row. The operands and the bias are handed back as
    found. -/
theorem run_last (c : Dev nD) (i : grid1.Coords)
    (arg3 : Memref sig .tc .vmem S1024x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hR : ¬condR i) (hO : condO i)
    (xb wb : Vec F S1024x2048 .bf16) (bb : Vec F S1x1024 .f32) (prev : Vec F S1024x1024 .f32)
    (E : Set ℕ) (K : PUnit → sProp 𝕄) :
    iprop(owns (c : Thread nD τ) arg3 fullShare xb ∗ owns (c : Thread nD τ) arg4 fullShare wb
        ∗ owns (c : Thread nD τ) arg5 fullShare bb ∗ (∃ d, owns (c : Thread nD τ) arg6 fullShare d)
        ∗ owns (c : Thread nD τ) arg7 fullShare prev
        ∗ (iprop(owns (c : Thread nD τ) arg3 fullShare xb ∗ owns (c : Thread nD τ) arg4 fullShare wb
            ∗ owns (c : Thread nD τ) arg5 fullShare bb
            ∗ owns (c : Thread nD τ) arg6 fullShare (k1_pay3 bb (k1_pay2 xb wb prev))
            ∗ owns (c : Thread nD τ) arg7 fullShare (k1_pay2 xb wb prev)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4
  obtain rfl := harg5.eq_unread hf5; obtain rfl := harg7.eq_unread hf7
  sl_exec (disch := first | exact hR | exact hO)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store_acc, readAt_bias harg5, readCov_store_acc, readAt_opd harg3, readAt_opd harg4, readAt_acc harg7]
  iexists _; isplitr
  swap; · iexact H7
  ipureintro
  sl_unfold_words
  rw [read_store_acc, readAt_opd harg3, readAt_opd harg4, readAt_acc harg7]

/-! ## What the body finds in its windows -/

/-- No point is idle for an input window. -/
theorem live1_0 (i : grid1.Coords) : cfg1.idle 0 i = false := rfl
theorem live1_1 (i : grid1.Coords) : cfg1.idle 1 i = false := rfl
theorem live1_2 (i : grid1.Coords) : cfg1.idle 2 i = false := rfl

/-- The left operand's current buffer holds its block at every point (it is fetched at every point; stated through
    the lemma that needs no fetch). -/
theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
/-- The right operand's likewise. -/
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)
/-- The bias row's block is fetched only where `k = 0`; at the other points of one `(i, j)` the block index has not
    moved and the body left the buffer as it found it, so it still holds that block. -/
theorem before1_2 (c : Dev nD) (t : Fin cfg1.N) (d) : (dat1 V c).before 2 t d = iblk1 V c 2 t :=
  ((dat1 V c).before_in_eq_fetched 2 rfl live1_2 (fun _ _ _ => rfl)
    (fun t => by rw [after1_2]; unfold Dat.blockOf iblk1; rw [A_eq1]; try rfl) t d).trans
    (by unfold Dat.fetched Dat.blockOf iblk1; rw [A_eq1]; try rfl)

/-- The output window is idle exactly where the body does not store it. -/
theorem idle1_3_of_not (i : grid1.Coords) (h : ¬condO i) : cfg1.idle 3 i = true := by
  show (!(k1_cond2 i == 1#1)) = true
  rw [Bool.not_eq_true', beq_eq_false_iff_ne]; exact h
theorem live1_3_of (i : grid1.Coords) (h : condO i) : cfg1.idle 3 i = false := by
  show (!(k1_cond2 i == 1#1)) = false
  rw [Bool.not_eq_false', beq_iff_eq]; exact h

/-- It is not written back at a point with `k ≠ 3`. -/
theorem noFlush1_3 (t : Fin cfg1.N) (h : ¬t.val % 4 = 3) : (cfg1.win 3).flush t = false :=
  Bool.eq_false_iff.mpr fun hf => h ((flush1_3 t).mp hf)

/-! ## The scoped rest, split -/

/-- Region 0's six staging buffers, idle here, each at some contents. -/
def sixIdle (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- `restWith c S` is those six beside `S`: the separating conjunction reassociated. -/
theorem restWith_split (c : Dev nD) (S : sProp 𝕄) : restWith (F := F) c S = iprop(sixIdle (F := F) c ∗ S) := by
  have h₁ : restWith (F := F) c S ⊢ (iprop(sixIdle (F := F) c ∗ S) : sProp 𝕄) := by
    unfold restWith sixIdle
    iintro ⟨H1, H2, H3, H4, H5, H6, HS⟩
    isplitr [HS]
    · isplitl [H1]; · iexact H1
      isplitl [H2]; · iexact H2
      isplitl [H3]; · iexact H3
      isplitl [H4]; · iexact H4
      isplitl [H5]; · iexact H5
      iexact H6
    · iexact HS
  have h₂ : (iprop(sixIdle (F := F) c ∗ S) : sProp 𝕄) ⊢ restWith (F := F) c S := by
    unfold restWith sixIdle
    iintro ⟨⟨H1, H2, H3, H4, H5, H6⟩, HS⟩
    isplitl [H1]; · iexact H1
    isplitl [H2]; · iexact H2
    isplitl [H3]; · iexact H3
    isplitl [H4]; · iexact H4
    isplitl [H5]; · iexact H5
    isplitl [H6]; · iexact H6
    iexact HS
  exact BI.equiv_iff.mp ⟨h₁, h₂⟩

/-- Before a point that is not the first the scratch is owned at what the point before left. -/
theorem PhiS1_pos (c : Dev nD) (n : ℕ) (h : n ≤ cfg1.N) (hz : n ≠ 0) :
    PhiS1 V c n h = iprop(restWith c (owns (c : Thread nD τ) scM fullShare (accAt V c (n - 1) (by omega))) ∗ ∃ r, prngReg c r) := by
  cases n with
  | zero => exact absurd rfl hz
  | succ n => rfl

/-- At the first point it is the class invariant. -/
theorem PhiS1_first (c : Dev nD) (n : ℕ) (h : n ≤ cfg1.N) (hz : n = 0) : PhiS1 V c n h = Pipeline.ΦA spec1 c := by
  subst hz; rfl

/-- The class invariant with the scratch as a memref owned at some contents. -/
theorem PhiA1_eq (c : Dev nD) :
    (Pipeline.ΦA spec1 c : sProp 𝕄)
      = iprop(iprop(sixIdle (F := F) c ∗ ∃ d, owns (c : Thread nD τ) scM fullShare d) ∗ ∃ r, prngReg c r) := by
  unfold Pipeline.ΦA; rw [scopedRest1_with, restWith_split]; simp only [scM, owns_whole]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input window is live everywhere: its buffer is left at its block. -/
theorem leaves1_0 (c : Dev nD) (t : Fin cfg1.N) :
    (dat1 V c).leavesExact 0 t = owns (c : Thread nD τ) (st1_0 t) fullShare (xblk V c t) := by
  rw [show (dat1 V c).leavesExact 0 t = owns (c : Thread nD τ) (st1_0 t) fullShare ((dat1 V c).after 0 t) from rfl, after1_0]
theorem leaves1_1 (c : Dev nD) (t : Fin cfg1.N) :
    (dat1 V c).leavesExact 1 t = owns (c : Thread nD τ) (st1_1 t) fullShare (wblk V c t) := by
  rw [show (dat1 V c).leavesExact 1 t = owns (c : Thread nD τ) (st1_1 t) fullShare ((dat1 V c).after 1 t) from rfl, after1_1]
theorem leaves1_2 (c : Dev nD) (t : Fin cfg1.N) :
    (dat1 V c).leavesExact 2 t = owns (c : Thread nD τ) (st1_2 t) fullShare (bblk V c t) := by
  rw [show (dat1 V c).leavesExact 2 t = owns (c : Thread nD τ) (st1_2 t) fullShare ((dat1 V c).after 2 t) from rfl, after1_2]

/-- Where `k ≠ 3` the output buffer is handed back as found; -/
theorem leaves1_3_idle (c : Dev nD) (t : Fin cfg1.N) (h : ¬t.val % 4 = 3) :
    (dat1 V c).leavesExact 3 t = iprop(∃ d, owns (c : Thread nD τ) (st1_3 t) fullShare ((dat1 V c).before 3 t d)) :=
  Dat.leavesExact_idle (dat1 V c) 3 t (idle1_3_of_not _ fun hc => h ((hcondO t).mp hc)) (noFlush1_3 t h)
/-- where `k = 3` it holds the accumulator plus the bias row. -/
theorem leaves1_3_live (c : Dev nD) (t : Fin cfg1.N) (h : t.val % 4 = 3) :
    (dat1 V c).leavesExact 3 t
      = owns (c : Thread nD τ) (st1_3 t) fullShare (k1_pay3 (bblk V c t) (accAt V c t.val t.isLt)) := by
  rw [show (dat1 V c).leavesExact 3 t = owns (c : Thread nD τ) (st1_3 t) fullShare ((dat1 V c).after 3 t) from by
    unfold Dat.leavesExact; rw [live1_3_of _ ((hcondO t).mpr h)], after1_3]

set_option maxHeartbeats 4000000 in
/-- The body at any point. The inputs' buffers hold their blocks; `k = t % 4` selects the case. The invariant hands
    the body the scratch (at anything at the first point, else at what the point before left) and takes it back at
    this point's accumulator, by the recursion's two equations. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, leaves1_0, leaves1_1, leaves1_2]
  rw [show (dat1 V c).owesAt () t.succ = (dat1 V c).owesAt () t.castSucc from rfl]
  rw [Phi1_castSucc, Phi1_succ, PhiS1_succ, restWith_split]
  have hN : t.val < 128 := lt_of_lt_of_eq t.isLt (show cfg1.N = 128 from N_1)
  by_cases h0 : t.val % 4 = 0
  · -- `k = 0`: reset, then add
    have h3 : ¬t.val % 4 = 3 := by omega
    rw [leaves1_3_idle V c t h3, accAt_reset V c t h0]
    by_cases hz : t.val = 0
    · rw [PhiS1_first V c _ _ hz, PhiA1_eq]
      iintro ⟨⟨⟨H6, HS⟩, Hg⟩, Ho, ⟨%d0, H0⟩, ⟨%d1, H1⟩, ⟨%d2, H2⟩, ⟨%d3, H3⟩⟩
      iapply (run_first c (grid1.coords t) _ _ _ _ _ _ _ _ _ _ ((hcondR t).mpr h0) (fun hc => h3 ((hcondO t).mp hc))
        (xblk V c t) (wblk V c t) Set.univ _)
      isplitl [H0]; · iexact H0
      isplitl [H1]; · iexact H1
      isplitl [HS]; · iexact HS
      iintro ⟨H0, H1, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexists _; iexact H3
    · rw [PhiS1_pos V c _ _ hz, restWith_split]
      iintro ⟨⟨⟨H6, HS⟩, Hg⟩, Ho, ⟨%d0, H0⟩, ⟨%d1, H1⟩, ⟨%d2, H2⟩, ⟨%d3, H3⟩⟩
      iapply (run_first c (grid1.coords t) _ _ _ _ _ _ _ _ _ _ ((hcondR t).mpr h0) (fun hc => h3 ((hcondO t).mp hc))
        (xblk V c t) (wblk V c t) Set.univ _)
      isplitl [H0]; · iexact H0
      isplitl [H1]; · iexact H1
      isplitl [HS]; · iexists _; iexact HS
      iintro ⟨H0, H1, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS1_pos V c _ _ hz, restWith_split, accAt_step V c t h0]
    by_cases h3 : t.val % 4 = 3
    · -- `k = 3`: add, then store the output
      rw [leaves1_3_live V c t h3, accAt_step V c t h0]
      iintro ⟨⟨⟨H6, HS⟩, Hg⟩, Ho, ⟨%d0, H0⟩, ⟨%d1, H1⟩, ⟨%d2, H2⟩, ⟨%d3, H3⟩⟩
      iapply (run_last c (grid1.coords t) _ _ _ _ _ _ _ _ _ _ (fun hc => h0 ((hcondR t).mp hc)) ((hcondO t).mpr h3)
        (xblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexact H3
    · -- `k ∈ {1, 2}`: add
      rw [leaves1_3_idle V c t h3]
      iintro ⟨⟨⟨H6, HS⟩, Hg⟩, Ho, ⟨%d0, H0⟩, ⟨%d1, H1⟩, ⟨%d2, H2⟩, ⟨%d3, H3⟩⟩
      iapply (run_mid c (grid1.coords t) _ _ _ _ _ _ _ _ _ _ (fun hc => h0 ((hcondR t).mp hc)) (fun hc => h3 ((hcondO t).mp hc))
        (xblk V c t) (wblk V c t) (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexists _; iexact H3

/-- Region 1's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero]

/-- After the last point the invariant gives the class's back: what the scratch holds is forgotten. -/
theorem hout1 (c : Dev nD) : (dat1 V c).Φ (Fin.last cfg1.N) ⊢ (Pipeline.ΦA spec1 c : sProp 𝕄) := by
  have hne : (Fin.last cfg1.N).val ≠ 0 := by
    rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, restWith_split, PhiA1_eq]
  iintro ⟨⟨H6, HS⟩, Hg⟩
  isplitr [Hg]
  · isplitl [H6]; · iexact H6
    iexists _; iexact HS
  · iexact Hg

end Cert.Kernel.Hand

end
-- ==== Proof.KRun.lean ====
/-
  The run of the kernel program: from any launch memory, every weakly fair execution terminates without a fault, the
  result buffer ends at what region 1's write-backs fold to, and the four argument buffers end as launched.

  The program is four segments: a host stretch (the transposition of the packed words), region 0, a host stretch (the
  reshapes, the narrowing, the transposition), region 1. Between two segments a core holds every unscoped buffer at the
  boundary's contents (`W0 … W4`), its generator register at some state, and owes nothing. A region takes its windows'
  arrays out of the unscoped buffers at entry and puts them back, at what the pipeline leaves, at exit; region 1's
  invariant additionally carries the accumulator scratch, entered at any contents and forgotten at the exit.
  No host stretch writes an argument and no region has one as an output window, so the fold at an argument's buffer walks
  back to the launch memory.
-/
import proofs.«407369_j88802743812109_3_alg».proof.Proof.KFold
import proofs.«407369_j88802743812109_3_alg».proof.Proof.KBody0
import proofs.«407369_j88802743812109_3_alg».proof.Proof.KBody1
import proofs.«407369_j88802743812109_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The scales are region 0's second input window: the pipeline leaves an input's array as it found it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
/-- No core owes another anything: no level is assigned. -/
abbrev Lnone : GSem nD τ sig → Finset Unit := fun _ => ∅
abbrev lvnone : GSem nD τ sig → Unit → ℕ := fun _ _ => 0
/-- What rides beside the buffers through every segment: the generator register at some state, and owing nothing. -/
abbrev rider (c : Dev nD) : sProp 𝕄 := iprop((∃ r, prngReg c r) ∗ ∃ W, owes (c : Thread nD τ) (0 : CellTallies nD τ sig Unit) W)

/-- A host stretch as a segment over the unscoped references from the contents `W`, the rider beside it. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lnone lvnone :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tlast (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ Lnone lvnone 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lnone lvnone 0 fun _ _ => rfl
  pre c := iprop(StableHlo.held (c : Thread nD τ) (Pipeline.ucRefs τ sig) (W1 m c) ∗ rider c)
  post c := iprop(StableHlo.held (c : Thread nD τ) (Pipeline.ucRefs τ sig) (W2 m c) ∗ rider c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`; its invariant enters at the scoped rest and
    the generator register (`hin1`) and gives them back with the scratch's contents forgotten (`hout1`). -/
def reg1 : Pipeline.RegionSeg (pcfgs (F := F)) adm (pdats m) () defs₀ 𝒱₀ Lnone lvnone 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ Lnone lvnone 1 fun _ _ => rfl
  pre c := iprop(StableHlo.held (c : Thread nD τ) (Pipeline.ucRefs τ sig) (W3 m c) ∗ rider c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (V3 m) c)
    unfold Pipeline.ΦA
    iintro ⟨Hp, -, Hr⟩
    isplitl [Hr]; · iexact Hr
    iexact Hp
  hout c := by
    refine BIBase.Entails.trans (show (pdats m 1 c).Φ (Fin.last _) ⊢ (Pipeline.ΦA spec1 c : sProp 𝕄) from hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ Lnone lvnone) :=
  [ .host (hostSeg hostOps0 hostOps0_sub hostOps0_fresh (W0 m)),
    .region (reg0 m),
    .host (hostSeg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- THE RUN: the result buffer ends at what region 1's write-backs fold to, the arguments as launched. -/
theorem run_main : θ_run defs (onTc (τ := τ) (main (F := F))) ⟨m, fun _ => 0, ρ⟩ (fun r => ∀ c : Dev nD,
      r.2.mem ((c.tc : Thread nD τ).loc main_v8) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ Lnone lvnone m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rider c)) (Tₙ := Tlast m)
    (hch := ⟨fun _ => .rfl, fun _ => .rfl, fun _ => .rfl, fun _ => .rfl, fun _ => .rfl⟩)
    (hinit := by
      refine Pipeline.initEach Lnone lvnone fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v8 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.Kernel.Hand

end
-- ==== Proof.KIData.lean ====
/-
  The proof data of the two pipelined regions, stated over a PARAMETER `V`: the TensorCore's buffer contents
  when the region is entered.

  Region 0 (the nibble unpacking): at grid point `t` the body reads the 128 rows `t·128 … t·128+127` of the packed
  words (laid out [row, half, block]) and of the scales, and stores into the output block the value
  `(nibble − 8) · scale`; the block is written back at every point. Nothing is carried between points.

  Region 1 (the product): the grid is (i, j, k) ∈ 4 × 8 × 4 with `k` innermost, so the point `t` has `k = t % 4`.
  A scratch accumulator is carried across the four points of one (i, j): at `k = 0` it is reset to zero, at every
  point the product of the current blocks of the two operands is added to it, and at `k = 3` the accumulator plus the
  broadcast bias row is stored into the output block, which is written back there and only there. `accAt n` is what
  the scratch holds after point `n`, by recursion on the point; the region's invariant before point `n + 1` owns
  the scratch at `accAt n`.
-/
import proofs.«407369_j88802743812109_3_alg».proof.Proof.Gen.KernelIdeal.Launch
import proofs.«407369_j88802743812109_3_alg».proof.Proof.Gen.KernelIdeal.Skeleton
import proofs.«407369_j88802743812109_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' block at point `t`: rows `t·128 …`, all 16 halves, all 256 blocks. -/
abbrev qblk (c : Dev nD) (t : Fin cfg0.N) : Vec F S128x16x256 .i32 := iblk0 V c 0 t
/-- The scales' block at point `t`. -/
abbrev sblk (c : Dev nD) (t : Fin cfg0.N) : Vec F S128x256 .f32 := iblk0 V c 1 t

/-- Region 0's proof data: the arrays as found; after the body each input buffer still at its block and the output
    buffer at the unpacked, shifted and scaled values of the two input blocks; the invariant the scoped rest and
    the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (qblk V c t) (sblk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (qblk V c t) (sblk V c t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's block at point `t = (i, j, k)`: rows `i·1024 …`, columns `k·2048 …`. -/
abbrev xblk (c : Dev nD) (t : Fin cfg1.N) : Vec F S1024x2048 .bf16 := iblk1 V c 0 t
/-- The right operand's block: rows `j·1024 …`, columns `k·2048 …`. -/
abbrev wblk (c : Dev nD) (t : Fin cfg1.N) : Vec F S1024x2048 .bf16 := iblk1 V c 1 t
/-- The bias row's block: columns `j·1024 …`. -/
abbrev bblk (c : Dev nD) (t : Fin cfg1.N) : Vec F S1x1024 .f32 := iblk1 V c 2 t

/-- The carried scratch, as the body names it. -/
abbrev scM : Memref sig .tc .vmem S1024x1024 .f32 := Memref.whole cc1_scratch0

/-- What the scratch holds after point `n`: the blocks' product added to zero where `k = n % 4 = 0`, to what the
    point before left elsewhere. -/
def accAt (c : Dev nD) : (n : ℕ) → n < cfg1.N → Vec F S1024x1024 .f32
  | 0, h => k1_pay2 (xblk V c ⟨0, h⟩) (wblk V c ⟨0, h⟩) (k1_pay1 (F := F))
  | n + 1, h =>
    if (n + 1) % 4 = 0 then k1_pay2 (xblk V c ⟨n + 1, h⟩) (wblk V c ⟨n + 1, h⟩) (k1_pay1 (F := F))
    else k1_pay2 (xblk V c ⟨n + 1, h⟩) (wblk V c ⟨n + 1, h⟩) (accAt c n (Nat.lt_of_succ_lt h))

/-- One step of the recursion, past the first point. -/
theorem accAt_succ (c : Dev nD) (n : ℕ) (h : n + 1 < cfg1.N) :
    accAt V c (n + 1) h =
      if (n + 1) % 4 = 0 then k1_pay2 (xblk V c ⟨n + 1, h⟩) (wblk V c ⟨n + 1, h⟩) (k1_pay1 (F := F))
      else k1_pay2 (xblk V c ⟨n + 1, h⟩) (wblk V c ⟨n + 1, h⟩) (accAt V c n (Nat.lt_of_succ_lt h)) := rfl

theorem accAt_reset (c : Dev nD) (t : Fin cfg1.N) (h : t.val % 4 = 0) :
    accAt V c t.val t.isLt = k1_pay2 (xblk V c t) (wblk V c t) (k1_pay1 (F := F)) := by
  obtain ⟨n, hn⟩ := t
  cases n with
  | zero => rfl
  | succ n => show accAt V c (n + 1) hn = _; rw [accAt_succ, if_pos h]

theorem accAt_step (c : Dev nD) (t : Fin cfg1.N) (h : ¬ t.val % 4 = 0) :
    accAt V c t.val t.isLt = k1_pay2 (xblk V c t) (wblk V c t)
      (accAt V c (t.val - 1) (Nat.lt_of_le_of_lt (Nat.sub_le _ _) t.isLt)) := by
  obtain ⟨n, hn⟩ := t
  cases n with
  | zero => exact absurd rfl h
  | succ n => show accAt V c (n + 1) hn = _; rw [accAt_succ, if_neg h]; rfl

/-- The scoped buffers region 1 neither stages nor names — region 0's six staging buffers, each at some contents —
    beside an assertion `S` about the scratch. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's scoped rest is those six beside the scratch at some contents. -/
theorem scopedRest1_with (c : Dev nD) :
    (Pipeline.scopedRest (Ix := Unit) (Name := ℕ) (U := UR sig nD τ) (Lvl := ℕ) (Val := Elt F) spec1 c : sProp 𝕄)
      = restWith c (iprop(∃ f : Buf (Elt F) ((c : Thread nD τ).loc cc1_scratch0), ((c : Thread nD τ).loc cc1_scratch0) ↦{fullShare} f)) :=
  scopedRest1_eq c

/-- Region 1's invariant before point `n`: at the first point the scoped rest and the generator register, as the
    region is entered; before point `n + 1` the same with the scratch owned at what point `n` left. -/
def PhiS1 (c : Dev nD) : (n : ℕ) → n ≤ cfg1.N → sProp 𝕄
  | 0, _ => Pipeline.ΦA spec1 c
  | n + 1, h => iprop(restWith c (owns (c : Thread nD τ) scM fullShare (accAt V c n h)) ∗ ∃ r, prngReg c r)

theorem PhiS1_zero (c : Dev nD) (h : 0 ≤ cfg1.N) : PhiS1 V c 0 h = Pipeline.ΦA spec1 c := rfl
theorem PhiS1_succ (c : Dev nD) (n : ℕ) (h : n < cfg1.N) :
    PhiS1 V c (n + 1) h = iprop(restWith c (owns (c : Thread nD τ) scM fullShare (accAt V c n h)) ∗ ∃ r, prngReg c r) := rfl

/-- Region 1's proof data: the arrays as found; after the body each input buffer still at its block; the output
    buffer, where the body stores it (`k = 3`; elsewhere the point is idle for it and the field is not read), at the
    accumulator plus the bias row; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (bblk V c t) (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (bblk V c t) (accAt V c t.val t.isLt) := by dsimp only [dat1]
theorem Phi1_castSucc (c : Dev nD) (t : Fin cfg1.N) :
    (dat1 V c).Φ t.castSucc = PhiS1 V c t.val (Nat.le_of_lt t.isLt) := rfl
theorem Phi1_succ (c : Dev nD) (t : Fin cfg1.N) :
    (dat1 V c).Φ t.succ = PhiS1 V c (t.val + 1) t.isLt := rfl

end Cert.KernelIdeal.Hand

end
-- ==== Proof.KIFold.lean ====
/-
  The buffer contents at each boundary of the program, folded from the launch memory `m`:
  launch → (the transposition of the packed words) → region 0 → (the reshapes, the narrowing and the transposition that
  lay the two operands out column-permuted, and the bias as a row) → region 1. A host stretch acts by
  `StableHlo.after`; a region leaves its windows' arrays at what its write-backs fold to (`Dat.arrAt … N`) and every
  other buffer as it found it.
-/
import proofs.«407369_j88802743812109_3_alg».proof.Proof.KIData
import Idealize.ShloMosaic.Lib.Pipeline.FrameSuffix

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal.Gen

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the first host stretch: region 0's entry. -/
abbrev W1 : Dev nD → Valuation τ sig (Elt F) := fun c => StableHlo.after hostOps0 (W0 m c)
/-- The same read at the TensorCore's references: what region 0's proof data take. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Cert.KernelIdeal.Hand

end
-- ==== Proof.KIBody0.lean ====
/-
  Region 0's body obligation.

  At a grid point the kernel body loads the whole staging buffer of the packed words, the whole staging buffer of the
  scales and (a value it never uses) the whole staging buffer of the output, then stores into the whole output buffer
  the payload of the two loaded values: per element, the low or the high nibble of the word, minus eight, times the
  row's scale, rounded to bfloat16. So from "the inputs' buffers hold their blocks, the output's buffer holds anything"
  it runs to "the inputs' buffers as they were, the output's buffer at the payload of the two blocks"; the region's
  invariant and what the core owes pass through unread.
-/
import proofs.«407369_j88802743812109_3_alg».proof.Proof.KIData
import Idealize.ShloMosaic.Lib.Pipeline.FrameBody
import Idealize.ShloMosaic.Lib.Pipeline.Value
import Idealize.ShloMosaic.Lib.Tactic
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The packed words' current staging buffer holds the words' block at every point, whether or not the pipeline
    fetched it there: the body leaves the block in place, and an unfetched block is the previous point's. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The same of the scales' staging buffer. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

/-- The whole-buffer rectangles start at offset zero on every axis. -/
private theorem off3_zero : (![0, 0, 0] : Fin 3 → Nat) = fun _ => 0 := funext fun a => by fin_cases a <;> rfl
private theorem off2_zero : (![0, 0] : Fin 2 → Nat) = fun _ => 0 := funext fun a => by fin_cases a <;> rfl

set_option maxHeartbeats 1000000 in
/-- The kernel body on whole staging memrefs: the words' at contents `x`, the scales' at `s`, the output's at anything.
    It runs to the continuation with the inputs' as they were and the output's at the payload of `x` and `s`: the
    output buffer is first loaded (the value is dropped), then one store through the whole-buffer rectangle at offset
    zero leaves its payload whatever was there, and the payload's two loads through such rectangles read `x` and `s`. -/
theorem sound_kernel0 (c : Dev nD) (E : Set ℕ) (i : grid0.Coords)
    (arg1 : Memref sig .tc .vmem S128x16x256 .i32) (harg1 : arg1.IsWhole)
    (arg2 : Memref sig .tc .vmem S128x256 .f32) (harg2 : arg2.IsWhole)
    (arg3 : Memref sig .tc .vmem S128x32x256 .bf16) (harg3 : arg3.IsWhole)
    (x : Vec F S128x16x256 .i32) (s : Vec F S128x256 .f32) (K : PUnit → sProp 𝕄) :
    iprop(owns (c : Thread nD τ) arg1 fullShare x ∗ owns (c : Thread nD τ) arg2 fullShare s
        ∗ (∃ d, owns (c : Thread nD τ) arg3 fullShare d)
        ∗ (iprop(owns (c : Thread nD τ) arg1 fullShare x ∗ owns (c : Thread nD τ) arg2 fullShare s
            ∗ owns (c : Thread nD τ) arg3 fullShare (k0_pay1 x s)) -∗ K ⟨⟩))
      ⊢ wp frame (wpE (defs₀ (F := F)) Variants.none c none) E
          (cc0__dequant_kernel i arg1 harg1 arg2 harg2 arg3 harg3) K := by
  simp only [cc0__dequant_kernel_eq_skeleton]; unfold cc0__dequant_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _
    (fun y => ⟨_, List.mem_singleton_self _, View.mem_set_unit_zero off3_zero inb_S128x32x256_S128x32x256_0_0_0 y⟩)]
  rw [View.canon_unit_zero off3_zero, View.readAt_eq_ld, View.readAt_eq_ld,
    View.ld_unit_zero off3_zero, View.ld_unit_zero off2_zero]

/-! ## The body obligation, at a generic point -/

/-- What the body is called with at point `t`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's buffer holds something, so the body's
    triple applies at the two blocks; the invariant and what the core owes are the same before and after. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (qblk V c t) (sblk V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 0's body obligation, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Region 1 (the product): the body obligation and the two ends of its invariant.

  The grid is (i, j, k) ∈ 4 × 8 × 4 with `k` innermost, so the point `t` has `k = t % 4`, and the body has three
  control cases. Where `k = 0` it stores zeros into the scratch accumulator, then adds the product of the two operand
  blocks; where `k ∈ {1, 2}` it adds the product to what the scratch held; where `k = 3` it adds the product and then
  stores the accumulator plus the broadcast bias row into the output buffer. Each case is one triple over arbitrary
  contents of the buffers; a store through the whole-buffer rectangle leaves its payload, and a load through it after
  such a store reads the payload back. At a generic point the triples are applied by cases on `t % 4`: the inputs'
  buffers hold their blocks, the invariant hands over the scratch at what the point before left (at anything at the
  first point) and takes it back at `accAt` of this point, by that recursion's two equations; the output buffer is
  handed back untouched where `k ≠ 3`.
-/
import proofs.«407369_j88802743812109_3_alg».proof.Proof.KIData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions and the whole-buffer rectangle -/

/-- The zero offsets of a rank-2 block, spelt as the body's rectangles spell them. -/
theorem hz2 : (![0, 0] : Fin 2 → Nat) = fun _ => 0 := by
  funext a; fin_cases a <;> rfl

/-- The reset's condition, as the body computes it from the innermost coordinate. -/
abbrev condR (i : grid1.Coords) : Prop :=
  (Scalar.cmpi .ne (Scalar.extui (Scalar.cmpi .eq (BitVec.ofNat 32 (i 2).val) 0#32)) 0#32) = 1#1
/-- The output store's condition. -/
abbrev condO (i : grid1.Coords) : Prop := k1_cond2 i = 1#1

/-- The reset happens exactly at the points with `k = 0`, -/
theorem hcondR : ∀ t : Fin cfg1.N, condR (grid1.coords t) ↔ t.val % 4 = 0 :=
  (by decide +kernel : ∀ t : Fin grid1.N, condR (grid1.coords t) ↔ t.val % 4 = 0)
/-- the output store exactly at those with `k = 3`. -/
theorem hcondO : ∀ t : Fin cfg1.N, condO (grid1.coords t) ↔ t.val % 4 = 3 :=
  (by decide +kernel : ∀ t : Fin grid1.N, condO (grid1.coords t) ↔ t.val % 4 = 3)

/-- The body's one rectangle on a 1024 × 1024 buffer is all of it. -/
theorem mem_whole_acc (y : S1024x1024.Idx) :
    y ∈ (Rect.unit (s := S1024x1024) ![0, 0] S1024x1024.size inb_S1024x1024_S1024x1024_0_0).set :=
  View.mem_set_unit_zero (S := S1024x1024) hz2 inb_S1024x1024_S1024x1024_0_0 y

/-- A store through that rectangle, last, leaves its payload in the buffer, whatever the earlier stores were and
    whatever the buffer held. -/
theorem read_store_acc (v : View sig .tc .vmem S1024x1024 .f32) (f : v.ty.Contents (Elt F))
    (w : Vec F S1024x1024 .f32) (L : List (View.Piece (Elt F) S1024x1024 .f32)) :
    v.read (Elt F) (v.writes (Elt F) f
      ((⟨Rect.unit (s := S1024x1024) ![0, 0] S1024x1024.size inb_S1024x1024_S1024x1024_0_0, w⟩ : View.Piece (Elt F) S1024x1024 .f32) :: L)) = w :=
  (View.read_writes_eq_canon v f
      ((⟨Rect.unit (s := S1024x1024) ![0, 0] S1024x1024.size inb_S1024x1024_S1024x1024_0_0, w⟩ : View.Piece (Elt F) S1024x1024 .f32) :: L)
      (fun y => ⟨⟨Rect.unit (s := S1024x1024) ![0, 0] S1024x1024.size inb_S1024x1024_S1024x1024_0_0, w⟩, List.mem_cons_self, mem_whole_acc y⟩)).trans
    (View.canon_cons_unit_zero (S := S1024x1024) hz2 inb_S1024x1024_S1024x1024_0_0 w L)

/-- A load through it after one such store reads the payload back. -/
theorem readCov_store_acc (v : View sig .tc .vmem S1024x1024 .f32) (w : Vec F S1024x1024 .f32) :
    v.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w :=
  View.readCov_unit_zero (S := S1024x1024) v hz2 inb_S1024x1024_S1024x1024_0_0 w

/-- A load of all of a whole memref reads what it holds. -/
theorem readAt_acc {m : Memref sig .tc .vmem S1024x1024 .f32} (h : m.IsWhole) (X : Vec F S1024x1024 .f32) :
    m.view.readAt (Elt F) (Rect.unit (s := S1024x1024) ![0, 0] S1024x1024.size inb_S1024x1024_S1024x1024_0_0).toLoadRect (h.unread X) = X := by
  rw [View.readAt_eq_ld, h.read_unread, View.ld_unit_zero (S := S1024x1024) hz2]
theorem readAt_opd {m : Memref sig .tc .vmem S1024x2048 .bf16} (h : m.IsWhole) (X : Vec F S1024x2048 .bf16) :
    m.view.readAt (Elt F) (Rect.unit (s := S1024x2048) ![0, 0] S1024x2048.size inb_S1024x2048_S1024x2048_0_0).toLoadRect (h.unread X) = X := by
  rw [View.readAt_eq_ld, h.read_unread, View.ld_unit_zero (S := S1024x2048) hz2]
theorem readAt_bias {m : Memref sig .tc .vmem S1x1024 .f32} (h : m.IsWhole) (X : Vec F S1x1024 .f32) :
    m.view.readAt (Elt F) (Rect.unit (s := S1x1024) ![0, 0] S1x1024.size inb_S1x1024_S1x1024_0_0).toLoadRect (h.unread X) = X := by
  rw [View.readAt_eq_ld, h.read_unread, View.ld_unit_zero (S := S1x1024) hz2]

/-! ## The body's three cases, on any whole memrefs -/

set_option maxHeartbeats 1000000 in
/-- A point with `k = 0`: the scratch, at anything, is reset to zeros, and the product of the two operand blocks is
    added to those zeros (the load after the reset reads the zeros back). The operands are handed back as found; the
    bias and output buffers are not touched. -/
theorem run_first (c : Dev nD) (i : grid1.Coords)
    (arg3 : Memref sig .tc .vmem S1024x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hR : condR i) (hO : ¬condO i)
    (xb wb : Vec F S1024x2048 .bf16)
    (E : Set ℕ) (K : PUnit → sProp 𝕄) :
    iprop(owns (c : Thread nD τ) arg3 fullShare xb ∗ owns (c : Thread nD τ) arg4 fullShare wb
        ∗ (∃ d, owns (c : Thread nD τ) arg7 fullShare d)
        ∗ (iprop(owns (c : Thread nD τ) arg3 fullShare xb ∗ owns (c : Thread nD τ) arg4 fullShare wb
            ∗ owns (c : Thread nD τ) arg7 fullShare (k1_pay2 xb wb (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  obtain rfl := harg3.eq_unread hf3; obtain rfl := harg4.eq_unread hf4
  sl_exec (disch := first | exact hR | exact hO)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [read_store_acc, readAt_opd harg3, readAt_opd harg4, readCov_store_acc]

set_option maxHeartbeats 1000000 in
/-- A point with `k ∈ {1, 2}`: neither branch is taken. The product of the two operand blocks is added to what the
    scratch held; the operands are handed back as found, the bias and output buffers are not touched. -/
theorem run_mid (c : Dev nD) (i : grid1.Coords)
    (arg3 : Memref sig .tc .vmem S1024x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hR : ¬condR i) (hO : ¬condO i)
    (xb wb : Vec F S1024x2048 .bf16) (prev : Vec F S1024x1024 .f32)
    (E : Set ℕ) (K : PUnit → sProp 𝕄) :
    iprop(owns (c : Thread nD τ) arg3 fullShare xb ∗ owns (c : Thread nD τ) arg4 fullShare wb
        ∗ owns (c : Thread nD τ) arg7 fullShare prev
        ∗ (iprop(owns (c : Thread nD τ) arg3 fullShare xb ∗ owns (c : Thread nD τ) arg4 fullShare wb
            ∗ owns (c : Thread nD τ) arg7 fullShare (k1_pay2 xb wb prev)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hR | exact hO)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [read_store_acc, readAt_opd harg3, readAt_opd harg4, readAt_acc harg7]

set_option maxHeartbeats 1000000 in
/-- A point with `k = 3`: the product is added to what the scratch held, and the output buffer, at anything, receives
    that sum (read back from the scratch) plus the broadcast bias row. The operands and the bias are handed back as
    found. -/
theorem run_last (c : Dev nD) (i : grid1.Coords)
    (arg3 : Memref sig .tc .vmem S1024x2048 .bf16) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hR : ¬condR i) (hO : condO i)
    (xb wb : Vec F S1024x2048 .bf16) (bb : Vec F S1x1024 .f32) (prev : Vec F S1024x1024 .f32)
    (E : Set ℕ) (K : PUnit → sProp 𝕄) :
    iprop(owns (c : Thread nD τ) arg3 fullShare xb ∗ owns (c : Thread nD τ) arg4 fullShare wb
        ∗ owns (c : Thread nD τ) arg5 fullShare bb ∗ (∃ d, owns (c : Thread nD τ) arg6 fullShare d)
        ∗ owns (c : Thread nD τ) arg7 fullShare prev
        ∗ (iprop(owns (c : Thread nD τ) arg3 fullShare xb ∗ owns (c : Thread nD τ) arg4 fullShare wb
            ∗ owns (c : Thread nD τ) arg5 fullShare bb
            ∗ owns (c : Thread nD τ) arg6 fullShare (k1_pay3 bb (k1_pay2 xb wb prev))
            ∗ owns (c : Thread nD τ) arg7 fullShare (k1_pay2 xb wb prev)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4
  obtain rfl := harg5.eq_unread hf5; obtain rfl := harg7.eq_unread hf7
  sl_exec (disch := first | exact hR | exact hO)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store_acc, readAt_bias harg5, readCov_store_acc, readAt_opd harg3, readAt_opd harg4, readAt_acc harg7]
  iexists _; isplitr
  swap; · iexact H7
  ipureintro
  sl_unfold_words
  rw [read_store_acc, readAt_opd harg3, readAt_opd harg4, readAt_acc harg7]

/-! ## What the body finds in its windows -/

/-- No point is idle for an input window. -/
theorem live1_0 (i : grid1.Coords) : cfg1.idle 0 i = false := rfl
theorem live1_1 (i : grid1.Coords) : cfg1.idle 1 i = false := rfl
theorem live1_2 (i : grid1.Coords) : cfg1.idle 2 i = false := rfl

/-- The left operand's current buffer holds its block at every point (it is fetched at every point; stated through
    the lemma that needs no fetch). -/
theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
/-- The right operand's likewise. -/
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)
/-- The bias row's block is fetched only where `k = 0`; at the other points of one `(i, j)` the block index has not
    moved and the body left the buffer as it found it, so it still holds that block. -/
theorem before1_2 (c : Dev nD) (t : Fin cfg1.N) (d) : (dat1 V c).before 2 t d = iblk1 V c 2 t :=
  ((dat1 V c).before_in_eq_fetched 2 rfl live1_2 (fun _ _ _ => rfl)
    (fun t => by rw [after1_2]; unfold Dat.blockOf iblk1; rw [A_eq1]; try rfl) t d).trans
    (by unfold Dat.fetched Dat.blockOf iblk1; rw [A_eq1]; try rfl)

/-- The output window is idle exactly where the body does not store it. -/
theorem idle1_3_of_not (i : grid1.Coords) (h : ¬condO i) : cfg1.idle 3 i = true := by
  show (!(k1_cond2 i == 1#1)) = true
  rw [Bool.not_eq_true', beq_eq_false_iff_ne]; exact h
theorem live1_3_of (i : grid1.Coords) (h : condO i) : cfg1.idle 3 i = false := by
  show (!(k1_cond2 i == 1#1)) = false
  rw [Bool.not_eq_false', beq_iff_eq]; exact h

/-- It is not written back at a point with `k ≠ 3`. -/
theorem noFlush1_3 (t : Fin cfg1.N) (h : ¬t.val % 4 = 3) : (cfg1.win 3).flush t = false :=
  Bool.eq_false_iff.mpr fun hf => h ((flush1_3 t).mp hf)

/-! ## The scoped rest, split -/

/-- Region 0's six staging buffers, idle here, each at some contents. -/
def sixIdle (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- `restWith c S` is those six beside `S`: the separating conjunction reassociated. -/
theorem restWith_split (c : Dev nD) (S : sProp 𝕄) : restWith (F := F) c S = iprop(sixIdle (F := F) c ∗ S) := by
  have h₁ : restWith (F := F) c S ⊢ (iprop(sixIdle (F := F) c ∗ S) : sProp 𝕄) := by
    unfold restWith sixIdle
    iintro ⟨H1, H2, H3, H4, H5, H6, HS⟩
    isplitr [HS]
    · isplitl [H1]; · iexact H1
      isplitl [H2]; · iexact H2
      isplitl [H3]; · iexact H3
      isplitl [H4]; · iexact H4
      isplitl [H5]; · iexact H5
      iexact H6
    · iexact HS
  have h₂ : (iprop(sixIdle (F := F) c ∗ S) : sProp 𝕄) ⊢ restWith (F := F) c S := by
    unfold restWith sixIdle
    iintro ⟨⟨H1, H2, H3, H4, H5, H6⟩, HS⟩
    isplitl [H1]; · iexact H1
    isplitl [H2]; · iexact H2
    isplitl [H3]; · iexact H3
    isplitl [H4]; · iexact H4
    isplitl [H5]; · iexact H5
    isplitl [H6]; · iexact H6
    iexact HS
  exact BI.equiv_iff.mp ⟨h₁, h₂⟩

/-- Before a point that is not the first the scratch is owned at what the point before left. -/
theorem PhiS1_pos (c : Dev nD) (n : ℕ) (h : n ≤ cfg1.N) (hz : n ≠ 0) :
    PhiS1 V c n h = iprop(restWith c (owns (c : Thread nD τ) scM fullShare (accAt V c (n - 1) (by omega))) ∗ ∃ r, prngReg c r) := by
  cases n with
  | zero => exact absurd rfl hz
  | succ n => rfl

/-- At the first point it is the class invariant. -/
theorem PhiS1_first (c : Dev nD) (n : ℕ) (h : n ≤ cfg1.N) (hz : n = 0) : PhiS1 V c n h = Pipeline.ΦA spec1 c := by
  subst hz; rfl

/-- The class invariant with the scratch as a memref owned at some contents. -/
theorem PhiA1_eq (c : Dev nD) :
    (Pipeline.ΦA spec1 c : sProp 𝕄)
      = iprop(iprop(sixIdle (F := F) c ∗ ∃ d, owns (c : Thread nD τ) scM fullShare d) ∗ ∃ r, prngReg c r) := by
  unfold Pipeline.ΦA; rw [scopedRest1_with, restWith_split]; simp only [scM, owns_whole]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input window is live everywhere: its buffer is left at its block. -/
theorem leaves1_0 (c : Dev nD) (t : Fin cfg1.N) :
    (dat1 V c).leavesExact 0 t = owns (c : Thread nD τ) (st1_0 t) fullShare (xblk V c t) := by
  rw [show (dat1 V c).leavesExact 0 t = owns (c : Thread nD τ) (st1_0 t) fullShare ((dat1 V c).after 0 t) from rfl, after1_0]
theorem leaves1_1 (c : Dev nD) (t : Fin cfg1.N) :
    (dat1 V c).leavesExact 1 t = owns (c : Thread nD τ) (st1_1 t) fullShare (wblk V c t) := by
  rw [show (dat1 V c).leavesExact 1 t = owns (c : Thread nD τ) (st1_1 t) fullShare ((dat1 V c).after 1 t) from rfl, after1_1]
theorem leaves1_2 (c : Dev nD) (t : Fin cfg1.N) :
    (dat1 V c).leavesExact 2 t = owns (c : Thread nD τ) (st1_2 t) fullShare (bblk V c t) := by
  rw [show (dat1 V c).leavesExact 2 t = owns (c : Thread nD τ) (st1_2 t) fullShare ((dat1 V c).after 2 t) from rfl, after1_2]

/-- Where `k ≠ 3` the output buffer is handed back as found; -/
theorem leaves1_3_idle (c : Dev nD) (t : Fin cfg1.N) (h : ¬t.val % 4 = 3) :
    (dat1 V c).leavesExact 3 t = iprop(∃ d, owns (c : Thread nD τ) (st1_3 t) fullShare ((dat1 V c).before 3 t d)) :=
  Dat.leavesExact_idle (dat1 V c) 3 t (idle1_3_of_not _ fun hc => h ((hcondO t).mp hc)) (noFlush1_3 t h)
/-- where `k = 3` it holds the accumulator plus the bias row. -/
theorem leaves1_3_live (c : Dev nD) (t : Fin cfg1.N) (h : t.val % 4 = 3) :
    (dat1 V c).leavesExact 3 t
      = owns (c : Thread nD τ) (st1_3 t) fullShare (k1_pay3 (bblk V c t) (accAt V c t.val t.isLt)) := by
  rw [show (dat1 V c).leavesExact 3 t = owns (c : Thread nD τ) (st1_3 t) fullShare ((dat1 V c).after 3 t) from by
    unfold Dat.leavesExact; rw [live1_3_of _ ((hcondO t).mpr h)], after1_3]

set_option maxHeartbeats 4000000 in
/-- The body at any point. The inputs' buffers hold their blocks; `k = t % 4` selects the case. The invariant hands
    the body the scratch (at anything at the first point, else at what the point before left) and takes it back at
    this point's accumulator, by the recursion's two equations. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, leaves1_0, leaves1_1, leaves1_2]
  rw [show (dat1 V c).owesAt () t.succ = (dat1 V c).owesAt () t.castSucc from rfl]
  rw [Phi1_castSucc, Phi1_succ, PhiS1_succ, restWith_split]
  have hN : t.val < 128 := lt_of_lt_of_eq t.isLt (show cfg1.N = 128 from N_1)
  by_cases h0 : t.val % 4 = 0
  · -- `k = 0`: reset, then add
    have h3 : ¬t.val % 4 = 3 := by omega
    rw [leaves1_3_idle V c t h3, accAt_reset V c t h0]
    by_cases hz : t.val = 0
    · rw [PhiS1_first V c _ _ hz, PhiA1_eq]
      iintro ⟨⟨⟨H6, HS⟩, Hg⟩, Ho, ⟨%d0, H0⟩, ⟨%d1, H1⟩, ⟨%d2, H2⟩, ⟨%d3, H3⟩⟩
      iapply (run_first c (grid1.coords t) _ _ _ _ _ _ _ _ _ _ ((hcondR t).mpr h0) (fun hc => h3 ((hcondO t).mp hc))
        (xblk V c t) (wblk V c t) Set.univ _)
      isplitl [H0]; · iexact H0
      isplitl [H1]; · iexact H1
      isplitl [HS]; · iexact HS
      iintro ⟨H0, H1, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexists _; iexact H3
    · rw [PhiS1_pos V c _ _ hz, restWith_split]
      iintro ⟨⟨⟨H6, HS⟩, Hg⟩, Ho, ⟨%d0, H0⟩, ⟨%d1, H1⟩, ⟨%d2, H2⟩, ⟨%d3, H3⟩⟩
      iapply (run_first c (grid1.coords t) _ _ _ _ _ _ _ _ _ _ ((hcondR t).mpr h0) (fun hc => h3 ((hcondO t).mp hc))
        (xblk V c t) (wblk V c t) Set.univ _)
      isplitl [H0]; · iexact H0
      isplitl [H1]; · iexact H1
      isplitl [HS]; · iexists _; iexact HS
      iintro ⟨H0, H1, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS1_pos V c _ _ hz, restWith_split, accAt_step V c t h0]
    by_cases h3 : t.val % 4 = 3
    · -- `k = 3`: add, then store the output
      rw [leaves1_3_live V c t h3, accAt_step V c t h0]
      iintro ⟨⟨⟨H6, HS⟩, Hg⟩, Ho, ⟨%d0, H0⟩, ⟨%d1, H1⟩, ⟨%d2, H2⟩, ⟨%d3, H3⟩⟩
      iapply (run_last c (grid1.coords t) _ _ _ _ _ _ _ _ _ _ (fun hc => h0 ((hcondR t).mp hc)) ((hcondO t).mpr h3)
        (xblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexact H3
    · -- `k ∈ {1, 2}`: add
      rw [leaves1_3_idle V c t h3]
      iintro ⟨⟨⟨H6, HS⟩, Hg⟩, Ho, ⟨%d0, H0⟩, ⟨%d1, H1⟩, ⟨%d2, H2⟩, ⟨%d3, H3⟩⟩
      iapply (run_mid c (grid1.coords t) _ _ _ _ _ _ _ _ _ _ (fun hc => h0 ((hcondR t).mp hc)) (fun hc => h3 ((hcondO t).mp hc))
        (xblk V c t) (wblk V c t) (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [H6 HS Hg]
      · isplitr [Hg]
        · isplitl [H6]; · iexact H6
          iexact HS
        · iexact Hg
      isplitl [Ho]; · iexact Ho
      isplitl [H0]; · iexact H0
      isplitl [H1]; · iexact H1
      isplitl [H2]; · iexact H2
      iexists _; iexact H3

/-- Region 1's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero]

/-- After the last point the invariant gives the class's back: what the scratch holds is forgotten. -/
theorem hout1 (c : Dev nD) : (dat1 V c).Φ (Fin.last cfg1.N) ⊢ (Pipeline.ΦA spec1 c : sProp 𝕄) := by
  have hne : (Fin.last cfg1.N).val ≠ 0 := by
    rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, restWith_split, PhiA1_eq]
  iintro ⟨⟨H6, HS⟩, Hg⟩
  isplitr [Hg]
  · isplitl [H6]; · iexact H6
    iexists _; iexact HS
  · iexact Hg

end Cert.KernelIdeal.Hand

end
-- ==== Proof.KIRun.lean ====
/-
  The run of the kernel program: from any launch memory, every weakly fair execution terminates without a fault, the
  result buffer ends at what region 1's write-backs fold to, and the four argument buffers end as launched.

  The program is four segments: a host stretch (the transposition of the packed words), region 0, a host stretch (the
  reshapes, the narrowing, the transposition), region 1. Between two segments a core holds every unscoped buffer at the
  boundary's contents (`W0 … W4`), its generator register at some state, and owes nothing. A region takes its windows'
  arrays out of the unscoped buffers at entry and puts them back, at what the pipeline leaves, at exit; region 1's
  invariant additionally carries the accumulator scratch, entered at any contents and forgotten at the exit.
  No host stretch writes an argument and no region has one as an output window, so the fold at an argument's buffer walks
  back to the launch memory.
-/
import proofs.«407369_j88802743812109_3_alg».proof.Proof.KIFold
import proofs.«407369_j88802743812109_3_alg».proof.Proof.KIBody0
import proofs.«407369_j88802743812109_3_alg».proof.Proof.KIBody1
import proofs.«407369_j88802743812109_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The scales are region 0's second input window: the pipeline leaves an input's array as it found it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
/-- No core owes another anything: no level is assigned. -/
abbrev Lnone : GSem nD τ sig → Finset Unit := fun _ => ∅
abbrev lvnone : GSem nD τ sig → Unit → ℕ := fun _ _ => 0
/-- What rides beside the buffers through every segment: the generator register at some state, and owing nothing. -/
abbrev rider (c : Dev nD) : sProp 𝕄 := iprop((∃ r, prngReg c r) ∗ ∃ W, owes (c : Thread nD τ) (0 : CellTallies nD τ sig Unit) W)

/-- A host stretch as a segment over the unscoped references from the contents `W`, the rider beside it. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lnone lvnone :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tlast (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ Lnone lvnone 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lnone lvnone 0 fun _ _ => rfl
  pre c := iprop(StableHlo.held (c : Thread nD τ) (Pipeline.ucRefs τ sig) (W1 m c) ∗ rider c)
  post c := iprop(StableHlo.held (c : Thread nD τ) (Pipeline.ucRefs τ sig) (W2 m c) ∗ rider c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`; its invariant enters at the scoped rest and
    the generator register (`hin1`) and gives them back with the scratch's contents forgotten (`hout1`). -/
def reg1 : Pipeline.RegionSeg (pcfgs (F := F)) adm (pdats m) () defs₀ 𝒱₀ Lnone lvnone 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ Lnone lvnone 1 fun _ _ => rfl
  pre c := iprop(StableHlo.held (c : Thread nD τ) (Pipeline.ucRefs τ sig) (W3 m c) ∗ rider c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (V3 m) c)
    unfold Pipeline.ΦA
    iintro ⟨Hp, -, Hr⟩
    isplitl [Hr]; · iexact Hr
    iexact Hp
  hout c := by
    refine BIBase.Entails.trans (show (pdats m 1 c).Φ (Fin.last _) ⊢ (Pipeline.ΦA spec1 c : sProp 𝕄) from hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ Lnone lvnone) :=
  [ .host (hostSeg hostOps0 hostOps0_sub hostOps0_fresh (W0 m)),
    .region (reg0 m),
    .host (hostSeg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- THE RUN: the result buffer ends at what region 1's write-backs fold to, the arguments as launched. -/
theorem run_main : θ_run defs (onTc (τ := τ) (main (F := F))) ⟨m, fun _ => 0, ρ⟩ (fun r => ∀ c : Dev nD,
      r.2.mem ((c.tc : Thread nD τ).loc main_v8) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ Lnone lvnone m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rider c)) (Tₙ := Tlast m)
    (hch := ⟨fun _ => .rfl, fun _ => .rfl, fun _ => .rfl, fun _ => .rfl, fun _ => .rfl⟩)
    (hinit := by
      refine Pipeline.initEach Lnone lvnone fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v8 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.KernelIdeal.Hand

end
-- ==== Proof.KIValSpec.lean ====
/-
  The value of one unpacked weight, as a scalar function of the packed word and the scale, shared by the two programs.
  A packed word holds two 4-bit fields; position `p` of a block of 32 takes the low field of word `p` when `p < 16` and
  the high field of word `p − 16` otherwise; the weight is (field − 8) · scale of the block.
-/
import proofs.«407369_j88802743812109_3_alg».proof.Proof.KIFold
import Idealize.ShloMosaic.Lib.ValueIdx
import Idealize.ShloMosaic.PureOps.Ideal

set_option maxRecDepth 16384

noncomputable section

namespace Cert.KernelIdeal.Val

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen Cert.KernelIdeal.Hand

variable (m : (ℓ : Loc nD τ sig) → Buf (Elt Ideal) ℓ) (c : Dev nD)

/-- The four argument arrays on core `c`, at their literal index types. -/
abbrev argX : S4096x8192.Idx → EReal := m ((c.tc : Thread nD τ).loc main_arg0)
abbrev argQ : S8192x256x16.Idx → BitVec 32 := m ((c.tc : Thread nD τ).loc main_arg1)
abbrev argS : S8192x256.Idx → EReal := m ((c.tc : Thread nD τ).loc main_arg2)
abbrev argB : S8192.Idx → EReal := m ((c.tc : Thread nD τ).loc main_arg3)

/-- The 4-bit field of a packed word that position `p` of a block reads: the low one for `p < 16`, else the high one. -/
def nib (w : BitVec 32) (p : Fin 32) : BitVec 32 :=
  if p.val < 16 then IntOp.andi w 15#32 else IntOp.andi (IntOp.shrsi .host w 4#32) 15#32

/-- The unpacked weight of row `o`, block `b`, position `p`: (field − 8) · scale, on the extended reals. -/
def deqW (q : S8192x256x16.Idx → BitVec 32) (s : S8192x256.Idx → EReal) (o : Fin 8192) (p : Fin 32) (b : Fin 256) : EReal :=
  FloatOps.mulf (F := Ideal) (φ := .f32)
    (FloatOps.subf (F := Ideal) (φ := .f32) (FloatOps.sitofp (F := Ideal) .f32 (nib (q (ix3 o b (⟨p.val % 16, by omega⟩ : Fin 16))) p))
      (FloatOps.ofBits (F := Ideal) .f32 0x41000000#32))
    (s (ix2 o b))

end Cert.KernelIdeal.Val

end
-- ==== Proof.KIValDeqK.lean ====
/-
  The array region 0 leaves — laid out [row, position-in-block, block] — read at (o, p, b) is the unpacked weight
  `deqW` of the launch arguments: the region reads the packed words transposed to [row, word, block], block `t` of 128
  rows at grid point `t`, and writes every block back.
-/
import proofs.«407369_j88802743812109_3_alg».proof.Proof.KIValSpec
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen Cert.KernelIdeal.Hand

variable (m : (ℓ : Loc nD τ sig) → Buf (Elt Ideal) ℓ) (c : Dev nD)

namespace DeqK

/-! ## What region 0 finds -/

/-- The packed words as region 0 finds them, laid out [row, word, block], and the scales. -/
abbrev foundQ : S8192x16x256.Idx → BitVec 32 := V1 m c main_v0
abbrev foundS : S8192x256.Idx → EReal := V1 m c main_arg2

/-- The one host operation before the region transposes the packed words' last two axes. -/
theorem foundQ_eq : foundQ m c = transpose S8192x16x256 [0, 2, 1] (argQ m c) transposes_S8192x256x16_S8192x16x256_0_2_1 := by
  show StableHlo.after hostOps0 _ (Proc.devRef .tc main_v0) = _
  after_results

/-- Nothing writes the scales before the region. -/
theorem foundS_eq : foundS m c = argS m c := by
  show StableHlo.after hostOps0 _ (Proc.devRef .tc main_arg2) = _
  after_results

/-- The transposed words at (row, word, block) are the launch argument at (row, block, word). -/
theorem foundQ_apply (o : Fin 8192) (h : Fin 16) (b : Fin 256) :
    foundQ m c (ix3 o h b) = argQ m c (ix3 o b h) := by
  rw [foundQ_eq]
  refine transpose_apply _ _ _ (ix3 o h b) (ix3 o b h) fun a => ?_
  match a with
  | ⟨0, _⟩ => rfl
  | ⟨1, _⟩ => rfl
  | ⟨2, _⟩ => rfl

/-! ## The body's payload at an index -/

/-- A right shift by four places is the same function on every arithmetic unit. -/
theorem shrsi_four (u : ArithUnit) (w : BitVec 32) : IntOp.shrsi u w 4#32 = w.sshiftRight' 4#32 := by
  unfold IntOp.shrsi
  rw [if_pos (by decide)]

/-- The two fields of the block's words laid side by side along the position axis: position `p` of row `r`, block `b`
    reads the field `nib` names of the word at (r, p mod 16, b). -/
theorem fields_apply (x : Vec Ideal S128x16x256 .i32) (r : Fin 128) (p : Fin 32) (b : Fin 256) :
    (concatenate S128x32x256 1
        [⟨S128x16x256, andi (shapeCast S128x16x256 x shapeCasts_S128x16x256_S128x16x256) (broadcast S128x16x256 15#32)⟩,
         ⟨S128x16x256, andi (shrsi (shapeCast S128x16x256 x shapeCasts_S128x16x256_S128x16x256) (broadcast S128x16x256 4#32)) (broadcast S128x16x256 15#32)⟩]
        concatenates_S128x16x256_S128x16x256_S128x32x256_d1 : IVec S128x32x256 32) (ix3 r p b)
      = nib (x (ix3 r (⟨p.val % 16, by omega⟩ : Fin 16) b)) p := by
  rw [shapeCast_self]
  unfold nib
  by_cases hp : p.val < 16
  · rw [if_pos hp]
    refine (concatenate_pair_apply_left (t := S128x32x256) (s₁ := S128x16x256) (s₂ := S128x16x256) _ _ _ _ (ix3 r p b) rfl (ix3 r (⟨p.val, hp⟩ : Fin 16) b) fun a => ?_).trans ?_
    · match a with
      | ⟨0, _⟩ => rfl
      | ⟨1, _⟩ => rfl
      | ⟨2, _⟩ => rfl
    · show IntOp.andi (x (ix3 r (⟨p.val, hp⟩ : Fin 16) b)) 15#32 = _
      have e : (⟨p.val, hp⟩ : Fin 16) = ⟨p.val % 16, by omega⟩ := Fin.ext (by show p.val = p.val % 16; omega)
      rw [e]
  · rw [if_neg hp]
    have hq : p.val - 16 < 16 := by have := p.isLt; omega
    refine (concatenate_pair_apply_right (t := S128x32x256) (s₁ := S128x16x256) (s₂ := S128x16x256) _ _ _ _ (ix3 r p b) rfl rfl (ix3 r (⟨p.val - 16, hq⟩ : Fin 16) b) (fun a ha => ?_) ?_).trans ?_
    · match a with
      | ⟨0, _⟩ => rfl
      | ⟨1, _⟩ => exact absurd rfl ha
      | ⟨2, _⟩ => rfl
    · show p.val - 16 + 16 = p.val
      omega
    · show IntOp.andi (IntOp.shrsi .vector (x (ix3 r (⟨p.val - 16, hq⟩ : Fin 16) b)) 4#32) 15#32 = _
      have e : (⟨p.val - 16, hq⟩ : Fin 16) = ⟨p.val % 16, by omega⟩ := Fin.ext (by show p.val - 16 = p.val % 16; omega)
      rw [e, shrsi_four, shrsi_four]

/-- The block's scales, given a unit position axis and spread over the 32 positions, read the scale of (r, b). -/
theorem scales_apply (s : Vec Ideal S128x256 .f32) (r : Fin 128) (p : Fin 32) (b : Fin 256) :
    (broadcastTo S128x32x256 (shapeCast S128x1x256 s shapeCasts_S128x256_S128x1x256) broadcasts_S128x1x256_S128x32x256 :
        FVec Ideal S128x32x256 .f32) (ix3 r p b) = s (ix2 r b) := by
  refine (broadcastTo_apply (s := S128x1x256) (t := S128x32x256) _ _ (ix3 r p b) (ix3 r (0 : Fin 1) b) fun a => ?_).trans ?_
  · match a with
    | ⟨0, _⟩ => rfl
    | ⟨1, _⟩ => rfl
    | ⟨2, _⟩ => rfl
  · refine shapeCast_apply (s := S128x256) (t := S128x1x256) _ _ (ix3 r (0 : Fin 1) b) (ix2 r b) ?_
    rw [Shape.rowMajor_val_two, Shape.rowMajor_val_three]
    show r.val * 256 + b.val = (r.val * 1 + 0) * 256 + b.val
    omega

/-- The payload at (r, p, b): (the field position `p` takes of the word at (r, p mod 16, b), converted, minus 8) times
    the scale at (r, b). The closing narrowing is the identity on the extended reals. -/
theorem pay_apply (x : Vec Ideal S128x16x256 .i32) (s : Vec Ideal S128x256 .f32) (r : Fin 128) (p : Fin 32) (b : Fin 256) :
    (k0_pay1 x s : FVec Ideal S128x32x256 .bf16) (ix3 r p b)
      = FloatOps.mulf (F := Ideal) (φ := .f32)
          (FloatOps.subf (F := Ideal) (φ := .f32)
            (FloatOps.sitofp (F := Ideal) .f32 (nib (x (ix3 r (⟨p.val % 16, by omega⟩ : Fin 16) b)) p))
            (FloatOps.ofBits (F := Ideal) .f32 0x41000000#32))
          (s (ix2 r b)) := by
  unfold k0_pay1
  rw [truncf_apply, mulf_apply, subf_apply, sitofp_apply, broadcast_apply, fields_apply, scales_apply]
  rfl

/-! ## From blocks to the array -/

/-- The whole unpacked array, index by index. -/
abbrev Wk : S8192x32x256.Idx → EReal := fun i => deqW (argQ m c) (argS m c) (i 0) (i 1) (i 2)

/-- `Wk` at an index of given coordinates. -/
theorem Wk_of_coords (i : S8192x32x256.Idx) (o : Fin 8192) (p : Fin 32) (b : Fin 256)
    (h0 : (i 0).val = o.val) (h1 : (i 1).val = p.val) (h2 : (i 2).val = b.val) :
    Wk m c i = deqW (argQ m c) (argS m c) o p b := by
  have e : i = ix3 o p b := funext fun a => Fin.ext (match a with | ⟨0, _⟩ => h0 | ⟨1, _⟩ => h1 | ⟨2, _⟩ => h2)
  rw [e]

/-- The three windows' index maps, decided over the grid: point `t` takes block `t` along the rows and block 0 along
    every other axis. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem lt64 (t : Fin cfg0.N) : t.val < 64 := lt_of_lt_of_eq t.isLt N_0

/-- The words' block at point `t`, read at (r, h, b), is the launch argument at row `t·128 + r`, block `b`, word `h`. -/
theorem qblk_apply (t : Fin cfg0.N) (r : Fin 128) (h : Fin 16) (b : Fin 256) (o : Fin 8192) (ho : o.val = t.val * 128 + r.val) :
    (qblk (V1 m) c t : Vec Ideal S128x16x256 .i32) (ix3 r h b) = argQ m c (ix3 o b h) := by
  rw [← foundQ_apply]
  show foundQ m c (((cfg0.win 0).blk t).view.emb (ix3 r h b)) = foundQ m c (ix3 o h b)
  obtain ⟨e0, e1, e2, -⟩ := idx_facts0 t
  refine congrArg _ (funext fun a => Fin.ext ?_)
  match a with
  | ⟨0, _⟩ => show win0_0.index t (0 : Fin 3) * 128 + 1 * r.val = o.val; rw [e0, ho]; omega
  | ⟨1, _⟩ => show win0_0.index t (1 : Fin 3) * 16 + 1 * h.val = h.val; rw [e1]; omega
  | ⟨2, _⟩ => show win0_0.index t (2 : Fin 3) * 256 + 1 * b.val = b.val; rw [e2]; omega

/-- The scales' block at point `t`, read at (r, b), is the launch argument at row `t·128 + r`, block `b`. -/
theorem sblk_apply (t : Fin cfg0.N) (r : Fin 128) (b : Fin 256) (o : Fin 8192) (ho : o.val = t.val * 128 + r.val) :
    (sblk (V1 m) c t : Vec Ideal S128x256 .f32) (ix2 r b) = argS m c (ix2 o b) := by
  rw [← foundS_eq]
  show foundS m c (((cfg0.win 1).blk t).view.emb (ix2 r b)) = foundS m c (ix2 o b)
  obtain ⟨-, -, -, e3, e4, -⟩ := idx_facts0 t
  refine congrArg _ (funext fun a => Fin.ext ?_)
  match a with
  | ⟨0, _⟩ => show win0_1.index t (0 : Fin 2) * 128 + 1 * r.val = o.val; rw [e3, ho]; omega
  | ⟨1, _⟩ => show win0_1.index t (1 : Fin 2) * 256 + 1 * b.val = b.val; rw [e4]; omega

/-- What point `t` leaves in the output block at (r, p, b) is `Wk` at the array index under that place of the block:
    row `t·128 + r`, position `p`, block `b`. -/
theorem blk_point (t : Fin cfg0.N) (r : Fin 128) (p : Fin 32) (b : Fin 256) :
    (k0_pay1 (qblk (V1 m) c t) (sblk (V1 m) c t) : FVec Ideal S128x32x256 .bf16) (ix3 r p b)
      = Wk m c (((cfg0.win 2).blk t).view.emb (ix3 r p b)) := by
  obtain ⟨-, -, -, -, -, e5, e6, e7⟩ := idx_facts0 t
  have ht := lt64 t
  have hr := r.isLt
  refine Eq.trans ?_ (Wk_of_coords m c _ (⟨t.val * 128 + r.val, by omega⟩ : Fin 8192) p b ?_ ?_ ?_).symm
  · refine (pay_apply (qblk (V1 m) c t) (sblk (V1 m) c t) r p b).trans ?_
    rw [qblk_apply m c t r _ b ⟨t.val * 128 + r.val, by omega⟩ rfl, sblk_apply m c t r b ⟨t.val * 128 + r.val, by omega⟩ rfl]
    rfl
  · show win0_2.index t (0 : Fin 3) * 128 + 1 * r.val = t.val * 128 + r.val
    rw [e5]; omega
  · show win0_2.index t (1 : Fin 3) * 32 + 1 * p.val = p.val
    rw [e6]; omega
  · show win0_2.index t (2 : Fin 3) * 256 + 1 * b.val = b.val
    rw [e7]; omega

/-- What point `t` writes back is block `t` of `Wk`. -/
theorem flushed_eq (t : Fin cfg0.N) :
    (dat0 (F := Ideal) (V1 m) c).flushed 2 t = ((cfg0.win 2).blk t).view.read (Elt Ideal) (Wk m c) := by
  show (cfg0.win 2).cut (grid0.coords t) ((dat0 (F := Ideal) (V1 m) c).after 2 t) = _
  rw [after0_2]
  funext j
  obtain ⟨r, p, b, rfl⟩ : ∃ (r : Fin 128) (p : Fin 32) (b : Fin 256), j = ix3 r p b := ⟨j 0, j 1, j 2, eq_ix3 j⟩
  exact blk_point m c t r p b

/-- An index of the array is under point `t`'s block iff each coordinate is in the block's range on its axis. -/
theorem mem_blk (t : Fin cfg0.N) (i : S8192x32x256.Idx) :
    i ∈ ((cfg0.win 2).blk t).view.set ↔ ∀ a : Fin 3, win0_2.index t a * S128x32x256.size a ≤ (i a).val
      ∧ (i a).val < win0_2.index t a * S128x32x256.size a + S128x32x256.size a := by
  show i ∈ ((View.whole main_v1).slice (win0_2.rect t)).set ↔ _
  rw [View.set_slice_whole, Rect.mem_set_unit]
  exact Iff.rfl

/-- Every index of the array is under the block of the point its row divided by 128 names, which writes back. -/
theorem cover (i : S8192x32x256.Idx) :
    ∃ t : Fin cfg0.N, (cfg0.win 2).flush t = true ∧ i ∈ ((cfg0.win 2).blk t).view.set := by
  have h0 : (i 0).val < 8192 := (i 0).isLt
  have h1 : (i 1).val < 32 := (i 1).isLt
  have h2 : (i 2).val < 256 := (i 2).isLt
  obtain ⟨t, ht⟩ : ∃ t : Fin cfg0.N, t.val = (i 0).val / 128 :=
    ⟨⟨(i 0).val / 128, lt_of_lt_of_eq (show (i 0).val / 128 < 64 by omega) N_0.symm⟩, rfl⟩
  obtain ⟨-, -, -, -, -, e5, e6, e7⟩ := idx_facts0 t
  refine ⟨t, flush0_2 t, ?_⟩
  rw [mem_blk]
  intro a
  match a with
  | ⟨0, _⟩ =>
    show win0_2.index t (0 : Fin 3) * 128 ≤ (i 0).val ∧ (i 0).val < win0_2.index t (0 : Fin 3) * 128 + 128
    rw [e5, ht]; omega
  | ⟨1, _⟩ =>
    show win0_2.index t (1 : Fin 3) * 32 ≤ (i 1).val ∧ (i 1).val < win0_2.index t (1 : Fin 3) * 32 + 32
    rw [e6]; omega
  | ⟨2, _⟩ =>
    show win0_2.index t (2 : Fin 3) * 256 ≤ (i 2).val ∧ (i 2).val < win0_2.index t (2 : Fin 3) * 256 + 256
    rw [e7]; omega

/-- The array region 0 leaves is `Wk`. -/
theorem arr_eq : (dat0 (F := Ideal) (V1 m) c).arrAt 2 cfg0.N = Wk m c :=
  (dat0 (F := Ideal) (V1 m) c).arrAt_eq_of_cover 2 (Wk m c) (fun t _ => flushed_eq m c t) cover

end DeqK

theorem deq_kernel (o : Fin 8192) (p : Fin 32) (b : Fin 256) :
    ((dat0 (F := Ideal) (V1 m) c).arrAt 2 cfg0.N : S8192x32x256.Idx → EReal) (ix3 o p b)
      = deqW (argQ m c) (argS m c) o p b := by
  exact congrFun (DeqK.arr_eq m c) (ix3 o p b)

end Cert.KernelIdeal.Val

end
-- ==== Proof.KIValDeqRef.lean ====
/-
  The reference's dequantized weight matrix [row, column], read at column `b·32 + p`, is the unpacked weight `deqW`:
  its stages are the two field extractions, their concatenation along the last axis, the conversion, the shift by 8,
  the product with the block's scale, and the reshape [row, block, position] → [row, column].
-/
import proofs.«407369_j88802743812109_3_alg».proof.Proof.KIValSpec
import proofs.«407369_j88802743812109_3_alg».proof.Proof.Gen.ReferenceIdeal.Read
import Idealize.ShloMosaic.Lib.ValueIdx
import Idealize.ShloMosaic.Lib.Pipeline.Value

set_option maxRecDepth 16384

noncomputable section

namespace Cert.KernelIdeal.Val

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen Cert.KernelIdeal.Hand

/-- The reshape [row, block, position] → [row, column] reads column `b·32 + p` of row `o` at (o, b, p): the row-major
    position `o·8192 + b·32 + p` has quotient `o` by 8192, block `b` and remainder `p` by 32. -/
theorem idx13_at (o : Fin 8192) (p : Fin 32) (b : Fin 256) :
    Cert.ReferenceIdeal.Read.idx_main_v13 (ix2 o (⟨b.val * 32 + p.val, by omega⟩ : Fin 8192)) = ix3 o b p := by
  funext a
  apply Fin.ext
  match a with
  | ⟨0, _⟩ => show (o.val * 8192 + (b.val * 32 + p.val)) / 8192 = o.val; omega
  | ⟨1, _⟩ => show (o.val * 8192 + (b.val * 32 + p.val)) / 32 % 256 = b.val; omega
  | ⟨2, _⟩ => show (o.val * 8192 + (b.val * 32 + p.val)) % 32 = p.val; omega

/-- The two broadcasts of the scales [row, block] → [row, block, 1] → [row, block, position] read (o, b, p) at (o, b). -/
theorem idx10_11_at (o : Fin 8192) (p : Fin 32) (b : Fin 256) :
    Cert.ReferenceIdeal.Read.idx_main_v10 (Cert.ReferenceIdeal.Read.idx_main_v11 (ix3 o b p)) = ix2 o b := by
  funext a
  apply Fin.ext
  match a with
  | ⟨0, _⟩ => rfl
  | ⟨1, _⟩ => rfl

/-- The concatenation along the last axis, at a position below 16: the first piece (the low fields) at the same place. -/
theorem v6_lo (q : S8192x256x16.Idx → BitVec 32) (o : Fin 8192) (p : Fin 32) (b : Fin 256) (hp : p.val < 16) :
    Cert.ReferenceIdeal.Read.val_main_v6 (F := Ideal) q (ix3 o b p)
      = Cert.ReferenceIdeal.Read.val_main_v1 (F := Ideal) q (ix3 o b (⟨p.val, hp⟩ : Fin 16)) := by
  unfold Cert.ReferenceIdeal.Read.val_main_v6
  exact concatenate_pair_apply_left (t := Cert.ReferenceIdeal.S8192x256x32) (s₁ := Cert.ReferenceIdeal.S8192x256x16)
    (s₂ := Cert.ReferenceIdeal.S8192x256x16) 2 _ _ _ _ rfl (ix3 o b (⟨p.val, hp⟩ : Fin 16)) (fun c => by
    match c with
    | ⟨0, _⟩ => rfl
    | ⟨1, _⟩ => rfl
    | ⟨2, _⟩ => rfl)

/-- The concatenation along the last axis, at a position from 16 on: the second piece (the high fields), 16 less. -/
theorem v6_hi (q : S8192x256x16.Idx → BitVec 32) (o : Fin 8192) (p : Fin 32) (b : Fin 256) (hp : 16 ≤ p.val) :
    Cert.ReferenceIdeal.Read.val_main_v6 (F := Ideal) q (ix3 o b p)
      = Cert.ReferenceIdeal.Read.val_main_v5 (F := Ideal) q (ix3 o b (⟨p.val - 16, by omega⟩ : Fin 16)) := by
  unfold Cert.ReferenceIdeal.Read.val_main_v6
  exact concatenate_pair_apply_right (t := Cert.ReferenceIdeal.S8192x256x32) (s₁ := Cert.ReferenceIdeal.S8192x256x16)
    (s₂ := Cert.ReferenceIdeal.S8192x256x16) 2 _ _ _ _ rfl rfl (ix3 o b (⟨p.val - 16, by omega⟩ : Fin 16))
    (fun c hc => by
      match c with
      | ⟨0, _⟩ => rfl
      | ⟨1, _⟩ => rfl
      | ⟨2, _⟩ => exact absurd rfl hc)
    (by show p.val - 16 + 16 = p.val; omega)

/-- The concatenated fields at (o, b, p) are the field `nib` of the packed word (o, b, p mod 16). -/
theorem v6_at (q : S8192x256x16.Idx → BitVec 32) (o : Fin 8192) (p : Fin 32) (b : Fin 256) :
    Cert.ReferenceIdeal.Read.val_main_v6 (F := Ideal) q (ix3 o b p)
      = nib (q (ix3 o b (⟨p.val % 16, by omega⟩ : Fin 16))) p := by
  unfold nib
  by_cases hp : p.val < 16
  · have e : (⟨p.val % 16, by omega⟩ : Fin 16) = ⟨p.val, hp⟩ := Fin.ext (Nat.mod_eq_of_lt hp)
    rw [if_pos hp, e, v6_lo q o p b hp, Cert.ReferenceIdeal.Read.val_main_v1_apply,
      Cert.ReferenceIdeal.Read.val_main_v0_apply, Cert.ReferenceIdeal.Read.val_main_c_apply]
  · have hp' : 16 ≤ p.val := Nat.le_of_not_lt hp
    have e : (⟨p.val % 16, by omega⟩ : Fin 16) = ⟨p.val - 16, by omega⟩ := Fin.ext (by show p.val % 16 = p.val - 16; omega)
    rw [if_neg hp, e, v6_hi q o p b hp', Cert.ReferenceIdeal.Read.val_main_v5_apply,
      Cert.ReferenceIdeal.Read.val_main_v3_apply, Cert.ReferenceIdeal.Read.val_main_v2_apply,
      Cert.ReferenceIdeal.Read.val_main_c_0_apply, Cert.ReferenceIdeal.Read.val_main_v4_apply,
      Cert.ReferenceIdeal.Read.val_main_c_1_apply]

theorem deq_ref (q : S8192x256x16.Idx → BitVec 32) (s : S8192x256.Idx → EReal) (o : Fin 8192) (p : Fin 32) (b : Fin 256) :
    Cert.ReferenceIdeal.Read.val_main_v13 (F := Ideal) q s (ix2 o (⟨b.val * 32 + p.val, by omega⟩ : Fin 8192))
      = deqW q s o p b := by
  rw [Cert.ReferenceIdeal.Read.val_main_v13_apply, idx13_at, Cert.ReferenceIdeal.Read.val_main_v12_apply,
    Cert.ReferenceIdeal.Read.val_main_v9_apply, Cert.ReferenceIdeal.Read.val_main_v7_apply,
    Cert.ReferenceIdeal.Read.val_main_v8_apply, Cert.ReferenceIdeal.Read.val_main_cst_apply,
    Cert.ReferenceIdeal.Read.val_main_v11_apply, Cert.ReferenceIdeal.Read.val_main_v10_apply,
    idx10_11_at, v6_at]
  rfl

end Cert.KernelIdeal.Val

end
-- ==== Proof.KIValDeq.lean ====
/-
  At the exact instance: the array region 0 leaves — the unpacked weights, laid out [row, position-in-block, block] —
  read at (o, p, b) is the reference's dequantized weight matrix at row `o`, column `b·32 + p`: both are the scalar
  `deqW` of the same packed word and scale.
-/
import proofs.«407369_j88802743812109_3_alg».proof.Proof.KIValDeqK
import proofs.«407369_j88802743812109_3_alg».proof.Proof.KIValDeqRef

set_option maxRecDepth 16384

noncomputable section

namespace Cert.KernelIdeal.Val

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen Cert.KernelIdeal.Hand

variable (m : (ℓ : Loc nD τ sig) → Buf (Elt Ideal) ℓ) (c : Dev nD)

theorem deq_array (o : Fin 8192) (p : Fin 32) (b : Fin 256) :
    ((dat0 (F := Ideal) (V1 m) c).arrAt 2 cfg0.N : S8192x32x256.Idx → EReal) (ix3 o p b)
      = Cert.ReferenceIdeal.Read.val_main_v13 (F := Ideal) (argQ m c) (argS m c)
          (ix2 o (⟨b.val * 32 + p.val, by omega⟩ : Fin 8192)) :=
  (deq_kernel m c o p b).trans (deq_ref (argQ m c) (argS m c) o p b).symm

end Cert.KernelIdeal.Val

end
-- ==== Proof.KIValMm.lean ====
/-
  At the exact instance: the array region 1 leaves, read at (n, o), is the sum over all 8192 columns of the products of
  the two operands it finds, plus the bias row's entry — the four stretches of 2048 columns, accumulated one grid point
  after the other from zero, regrouped into one sum.
-/
import proofs.«407369_j88802743812109_3_alg».proof.Proof.KIData
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b)) (c : Dev nD)

/-- The three arrays region 1 reads, as it finds them, at their literal index types: the left operand [4096, 8192], the
    right operand [8192, 8192] (contracted along its second axis), the bias row [1, 8192]. -/
abbrev lhsArr : S4096x8192.Idx → EReal := V c main_v6
abbrev rhsArr : S8192x8192.Idx → EReal := V c main_v2
abbrev biasArr : S1x8192.Idx → EReal := V c main_v7
/-- The array region 1 leaves in its output window. -/
abbrev outArr : S4096x8192.Idx → EReal := (dat1 (F := Ideal) V c).arrAt 3 cfg1.N

namespace Mm

/-! ## The three payloads read at an index -/

/-- The contraction's operand indices, axis by axis: the left operand is read at the output's row and the contracted
    column, the right operand at the output's column and the contracted column. -/
theorem lhs_mm_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_mm_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_mm_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_mm_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The product of two blocks into a zero accumulator, read at (p, q): the sum over the 2048 contracted columns. -/
theorem mm_zero_apply (x w : FVec Ideal S1024x2048 .bf16) (p q : Fin 1024) :
    FloatOps.matmul dot_S1024x2048_S1024x2048_S1024x1024_1_1_0_0_n_n none x w (constant (F := Ideal) S1024x1024 .f32 0x00000000#32) (ix2 p q)
      = ∑ k : Fin 2048, x (ix2 p k) * w (ix2 q k) := by
  rw [Ideal.matmul_constant_zero_apply, ← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]

/-- The accumulator's reset value is zero everywhere. -/
theorem pay1_apply (j : S1024x1024.Idx) : k1_pay1 (F := Ideal) j = 0 := by
  unfold k1_pay1
  simp only [shapeCast_self]
  exact Ideal.ofBits_zero_f32

/-- One accumulation step at (p, q): what was there plus the blocks' product there. -/
theorem pay2_apply (x w : Vec Ideal S1024x2048 .bf16) (prev : Vec Ideal S1024x1024 .f32) (p q : Fin 1024) :
    k1_pay2 (F := Ideal) x w prev (ix2 p q) = prev (ix2 p q) + ∑ k : Fin 2048, x (ix2 p k) * w (ix2 q k) := by
  unfold k1_pay2
  simp only [shapeCast_self]
  exact congrArg (prev (ix2 p q) + ·) (mm_zero_apply x w p q)

/-- The stored block at (p, q): the accumulator there plus the bias row's entry of column q. -/
theorem pay3_apply (b : Vec Ideal S1x1024 .f32) (acc : Vec Ideal S1024x1024 .f32) (p q : Fin 1024) :
    k1_pay3 (F := Ideal) b acc (ix2 p q) = acc (ix2 p q) + b (ix2 (0 : Fin 1) q) := by
  unfold k1_pay3
  simp only [shapeCast_self]
  refine congrArg (acc (ix2 p q) + ·) ?_
  exact broadcastTo_apply b broadcasts_S1x1024_S1024x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-! ## Where each block sits in its array -/

/-- The printed index maps over the grid (i, j, k) ∈ 4 × 8 × 4, k innermost: the left operand's block is (i, k), the
    right operand's (j, k), the bias row's (0, j), the output's (i, j). -/
theorem idx_facts : ∀ t : Fin cfg1.N,
    win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = 0 ∧ win1_2.index t (1 : Fin 2) = t.val / 4 % 8
    ∧ win1_3.index t (0 : Fin 2) = t.val / 32 ∧ win1_3.index t (1 : Fin 2) = t.val / 4 % 8 :=
  (by decide +kernel : ∀ t : Fin grid1.N, _)

/-- The left operand's block at point t, at (p, j): the array at row (t / 32)·1024 + p, column (t % 4)·2048 + j. -/
theorem xblk_apply (t : Fin cfg1.N) (p : Fin 1024) (j : Fin 2048) (r : Fin 4096) (s : Fin 8192)
    (hr : r.val = t.val / 32 * 1024 + p.val) (hs : s.val = t.val % 4 * 2048 + j.val) :
    xblk (F := Ideal) V c t (ix2 p j) = lhsArr V c (ix2 r s) := by
  obtain ⟨e0, e1, -⟩ := idx_facts t
  show V c main_v6 (((cfg1.win 0).blk t).view.emb (ix2 p j)) = V c main_v6 (ix2 r s)
  refine congrArg (V c main_v6) (funext fun a => Fin.ext ?_)
  match a with
  | ⟨0, _⟩ => show win1_0.index t (0 : Fin 2) * 1024 + 1 * p.val = r.val; omega
  | ⟨1, _⟩ => show win1_0.index t (1 : Fin 2) * 2048 + 1 * j.val = s.val; omega

/-- The right operand's block at point t, at (q, j): the array at row (t / 4 % 8)·1024 + q, column (t % 4)·2048 + j. -/
theorem wblk_apply (t : Fin cfg1.N) (q : Fin 1024) (j : Fin 2048) (r : Fin 8192) (s : Fin 8192)
    (hr : r.val = t.val / 4 % 8 * 1024 + q.val) (hs : s.val = t.val % 4 * 2048 + j.val) :
    wblk (F := Ideal) V c t (ix2 q j) = rhsArr V c (ix2 r s) := by
  obtain ⟨-, -, e2, e3, -⟩ := idx_facts t
  show V c main_v2 (((cfg1.win 1).blk t).view.emb (ix2 q j)) = V c main_v2 (ix2 r s)
  refine congrArg (V c main_v2) (funext fun a => Fin.ext ?_)
  match a with
  | ⟨0, _⟩ => show win1_1.index t (0 : Fin 2) * 1024 + 1 * q.val = r.val; omega
  | ⟨1, _⟩ => show win1_1.index t (1 : Fin 2) * 2048 + 1 * j.val = s.val; omega

/-- The bias row's block at point t, at (0, q): the row at column (t / 4 % 8)·1024 + q. -/
theorem bblk_apply (t : Fin cfg1.N) (q : Fin 1024) (s : Fin 8192)
    (hs : s.val = t.val / 4 % 8 * 1024 + q.val) :
    bblk (F := Ideal) V c t (ix2 (0 : Fin 1) q) = biasArr V c (ix2 (0 : Fin 1) s) := by
  obtain ⟨-, -, -, -, e4, e5, -⟩ := idx_facts t
  show V c main_v7 (((cfg1.win 2).blk t).view.emb (ix2 (0 : Fin 1) q)) = V c main_v7 (ix2 (0 : Fin 1) s)
  refine congrArg (V c main_v7) (funext fun a => Fin.ext ?_)
  match a with
  | ⟨0, _⟩ => show win1_2.index t (0 : Fin 2) * 1 + 1 * 0 = 0; omega
  | ⟨1, _⟩ => show win1_2.index t (1 : Fin 2) * 1024 + 1 * q.val = s.val; omega

/-! ## The accumulator over the four points of one output block -/

/-- The scratch's contents depend on the point's number only. -/
theorem accAt_congr (a b : ℕ) (ha : a < cfg1.N) (hb : b < cfg1.N) (e : a = b) :
    accAt (F := Ideal) V c a ha = accAt (F := Ideal) V c b hb := by
  subst e; rfl

/-- One stretch: the sum over the 2048 columns of the two blocks at point u, rows p and q. -/
abbrev stretch (u : Fin cfg1.N) (p q : Fin 1024) : EReal :=
  ∑ j : Fin 2048, xblk (F := Ideal) V c u (ix2 p j) * wblk (F := Ideal) V c u (ix2 q j)

/-- At a point with k = 0 the scratch holds zero plus that point's stretch. -/
theorem acc_reset_apply (u : Fin cfg1.N) (h : u.val % 4 = 0) (p q : Fin 1024) :
    accAt (F := Ideal) V c u.val u.isLt (ix2 p q) = 0 + stretch V c u p q := by
  rw [accAt_reset V c u h]
  exact (pay2_apply _ _ _ p q).trans (congrArg (· + stretch V c u p q) (pay1_apply _))

/-- At a point with k ≠ 0 it holds what the point before left plus that point's stretch. -/
theorem acc_step_apply (u : Fin cfg1.N) (h : ¬ u.val % 4 = 0) (p q : Fin 1024) :
    accAt (F := Ideal) V c u.val u.isLt (ix2 p q)
      = accAt (F := Ideal) V c (u.val - 1) (Nat.lt_of_le_of_lt (Nat.sub_le _ _) u.isLt) (ix2 p q) + stretch V c u p q := by
  rw [accAt_step V c u h]
  exact pay2_apply _ _ _ p q

/-- Four consecutive points starting at k = 0: zero plus the four stretches, in point order. -/
theorem acc_four (u0 u1 u2 u3 : Fin cfg1.N) (h0 : u0.val % 4 = 0) (h1 : u1.val = u0.val + 1) (h2 : u2.val = u0.val + 2)
    (h3 : u3.val = u0.val + 3) (p q : Fin 1024) :
    accAt (F := Ideal) V c u3.val u3.isLt (ix2 p q)
      = 0 + stretch V c u0 p q + stretch V c u1 p q + stretch V c u2 p q + stretch V c u3 p q := by
  rw [acc_step_apply V c u3 (by omega) p q, accAt_congr V c (u3.val - 1) u2.val _ u2.isLt (by omega),
    acc_step_apply V c u2 (by omega) p q, accAt_congr V c (u2.val - 1) u1.val _ u1.isLt (by omega),
    acc_step_apply V c u1 (by omega) p q, accAt_congr V c (u1.val - 1) u0.val _ u0.isLt (by omega),
    acc_reset_apply V c u0 h0 p q]

/-! ## The 8192 columns as four stretches of 2048 -/

/-- Column k·2048 + j is the j-th of stretch k. -/
def colEquiv : Fin 4 × Fin 2048 ≃ Fin 8192 where
  toFun x := ⟨x.1.val * 2048 + x.2.val, by have h1 := x.1.isLt; have h2 := x.2.isLt; omega⟩
  invFun i := (⟨i.val / 2048, by have h := i.isLt; omega⟩, ⟨i.val % 2048, Nat.mod_lt _ (by decide)⟩)
  left_inv x := by
    obtain ⟨k, j⟩ := x
    have hk := k.isLt
    have hj := j.isLt
    refine Prod.ext (Fin.ext ?_) (Fin.ext ?_)
    · show (k.val * 2048 + j.val) / 2048 = k.val; omega
    · show (k.val * 2048 + j.val) % 2048 = j.val; omega
  right_inv i := by
    refine Fin.ext ?_
    show i.val / 2048 * 2048 + i.val % 2048 = i.val
    omega

theorem colEquiv_val (k : Fin 4) (j : Fin 2048) : (colEquiv (k, j)).val = k.val * 2048 + j.val := rfl

/-- A sum over all columns is zero plus the four stretches' sums, in order: only commutativity and associativity of the
    extended reals' addition, and zero on the left. -/
theorem sum_cols (f : Fin 8192 → EReal) :
    ∑ i : Fin 8192, f i
      = 0 + (∑ j : Fin 2048, f (colEquiv (0, j))) + (∑ j : Fin 2048, f (colEquiv (1, j)))
        + (∑ j : Fin 2048, f (colEquiv (2, j))) + (∑ j : Fin 2048, f (colEquiv (3, j))) := by
  rw [← Equiv.sum_comp colEquiv f, Fintype.sum_prod_type, Fin.sum_univ_four, zero_add]

/-- One stretch, read off the arrays: at a point u of the output block with rows R and columns C, whose k is the
    stretch's number. -/
theorem stretch_eq (u : Fin cfg1.N) (p q : Fin 1024) (R : Fin 4096) (C : Fin 8192) (k : Fin 4)
    (hR : R.val = u.val / 32 * 1024 + p.val) (hC : C.val = u.val / 4 % 8 * 1024 + q.val) (hk : u.val % 4 = k.val) :
    stretch V c u p q
      = ∑ j : Fin 2048, lhsArr V c (ix2 R (colEquiv (k, j))) * rhsArr V c (ix2 C (colEquiv (k, j))) :=
  Finset.sum_congr rfl fun j _ => by
    rw [xblk_apply V c u p j R (colEquiv (k, j)) hR (by rw [colEquiv_val, hk]),
      wblk_apply V c u q j C (colEquiv (k, j)) hC (by rw [colEquiv_val, hk])]

/-! ## From the blocks to the array -/

/-- What the output array ends holding: at (r, s) the sum over all columns of the two operands' products plus the bias
    row's entry. -/
abbrev G : S4096x8192.Idx → EReal := fun i =>
  (∑ s : Fin 8192, lhsArr V c (ix2 (⟨(i 0).val, idx2_lt0 i⟩ : Fin 4096) s) * rhsArr V c (ix2 (⟨(i 1).val, idx2_lt1 i⟩ : Fin 8192) s))
    + biasArr V c (ix2 (0 : Fin 1) (⟨(i 1).val, idx2_lt1 i⟩ : Fin 8192))

/-- A point that writes the output block back (k = 3) writes its block of `G`. -/
theorem flushed_eq (t : Fin cfg1.N) (hf : (cfg1.win 3).flush t = true) :
    (dat1 (F := Ideal) V c).flushed 3 t = ((cfg1.win 3).blk t).view.read (Elt Ideal) (G V c) := by
  have h3 : t.val % 4 = 3 := (flush1_3 t).mp hf
  have hN : t.val < 128 := lt_of_lt_of_eq t.isLt N_1
  obtain ⟨-, -, -, -, -, -, e6, e7⟩ := idx_facts t
  show (cfg1.win 3).cut (grid1.coords t) ((dat1 (F := Ideal) V c).after 3 t) = _
  rw [after1_3]
  refine funext fun (y : S1024x1024.Idx) => ?_
  obtain ⟨p, q, rfl⟩ : ∃ (p : Fin 1024) (q : Fin 1024), y = ix2 p q := ⟨y 0, y 1, eq_ix2 y⟩
  have hp := p.isLt
  have hq := q.isLt
  -- the array's row and column under (p, q) of this block
  obtain ⟨R, hR⟩ : ∃ R : Fin 4096, R.val = t.val / 32 * 1024 + p.val := ⟨⟨t.val / 32 * 1024 + p.val, by omega⟩, rfl⟩
  obtain ⟨C, hC⟩ : ∃ C : Fin 8192, C.val = t.val / 4 % 8 * 1024 + q.val := ⟨⟨t.val / 4 % 8 * 1024 + q.val, by omega⟩, rfl⟩
  have hemb : ((cfg1.win 3).blk t).view.emb (ix2 p q) = (ix2 R C : S4096x8192.Idx) := by
    funext a; apply Fin.ext
    match a with
    | ⟨0, _⟩ => show win1_3.index t (0 : Fin 2) * 1024 + 1 * p.val = R.val; omega
    | ⟨1, _⟩ => show win1_3.index t (1 : Fin 2) * 1024 + 1 * q.val = C.val; omega
  show k1_pay3 (F := Ideal) (bblk V c t) (accAt V c t.val t.isLt) (ix2 p q) = G V c (((cfg1.win 3).blk t).view.emb (ix2 p q))
  rw [hemb]
  show _ = (∑ s : Fin 8192, lhsArr V c (ix2 R s) * rhsArr V c (ix2 C s)) + biasArr V c (ix2 (0 : Fin 1) C)
  refine (pay3_apply _ _ p q).trans ?_
  rw [bblk_apply V c t q C hC]
  refine congrArg (· + biasArr V c (ix2 (0 : Fin 1) C)) ?_
  -- the four points of this output block
  obtain ⟨u0, hu0⟩ : ∃ u : Fin cfg1.N, u.val = t.val - 3 := ⟨⟨t.val - 3, Nat.lt_of_le_of_lt (Nat.sub_le _ _) t.isLt⟩, rfl⟩
  obtain ⟨u1, hu1⟩ : ∃ u : Fin cfg1.N, u.val = t.val - 2 := ⟨⟨t.val - 2, Nat.lt_of_le_of_lt (Nat.sub_le _ _) t.isLt⟩, rfl⟩
  obtain ⟨u2, hu2⟩ : ∃ u : Fin cfg1.N, u.val = t.val - 1 := ⟨⟨t.val - 1, Nat.lt_of_le_of_lt (Nat.sub_le _ _) t.isLt⟩, rfl⟩
  rw [acc_four V c u0 u1 u2 t (by omega) (by omega) (by omega) (by omega) p q,
    stretch_eq V c u0 p q R C 0 (by omega) (by omega) (by show u0.val % 4 = 0; omega),
    stretch_eq V c u1 p q R C 1 (by omega) (by omega) (by show u1.val % 4 = 1; omega),
    stretch_eq V c u2 p q R C 2 (by omega) (by omega) (by show u2.val % 4 = 2; omega),
    stretch_eq V c t p q R C 3 hR hC (by show t.val % 4 = 3; exact h3)]
  exact (sum_cols fun s => lhsArr V c (ix2 R s) * rhsArr V c (ix2 C s)).symm

/-- An index of the array is in point t's block iff each coordinate is in the block's range on its axis. -/
theorem mem_blk (t : Fin cfg1.N) (i : S4096x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v8).slice (win1_3.rect t)).set ↔ _
  rw [View.set_slice_whole, Rect.mem_set_unit]
  exact Iff.rfl

/-- Every index (r, s) is in the block written back at the point i = r / 1024, j = s / 1024, k = 3. -/
theorem cover (i : S4096x8192.Idx) :
    ∃ t : Fin cfg1.N, (cfg1.win 3).flush t = true ∧ i ∈ ((cfg1.win 3).blk t).view.set := by
  have hi0 : (i 0).val < 4096 := idx2_lt0 i
  have hi1 : (i 1).val < 8192 := idx2_lt1 i
  obtain ⟨t, ht⟩ : ∃ t : Fin cfg1.N, t.val = (i 0).val / 1024 * 32 + (i 1).val / 1024 * 4 + 3 :=
    ⟨⟨(i 0).val / 1024 * 32 + (i 1).val / 1024 * 4 + 3, lt_of_lt_of_eq (by omega) N_1.symm⟩, rfl⟩
  obtain ⟨-, -, -, -, -, -, e6, e7⟩ := idx_facts t
  refine ⟨t, (flush1_3 t).mpr (by omega), ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The array region 1 leaves in its output window is `G`. -/
theorem final : outArr V c = G V c :=
  (dat1 (F := Ideal) V c).arrAt_eq_of_cover 3 (G V c) (flushed_eq V c) cover

end Mm

theorem mm_array (n : Fin 4096) (o : Fin 8192) :
    outArr V c (ix2 n o)
      = (∑ i : Fin 8192, lhsArr V c (ix2 n i) * rhsArr V c (ix2 o i)) + biasArr V c (ix2 (0 : Fin 1) o) := by
  exact congrFun (Mm.final V c) (ix2 n o)

end Cert.KernelIdeal.Val

end
-- ==== Proof.KIValGlue.lean ====
/-
  At the exact instance: the kernel program's result array is the reference's result term of the four arguments.
  The two operands region 1 finds are the input and the unpacked weights with their columns permuted by the SAME
  bijection of the 8192 columns (column `p·256 + b` holds the natural column `b·32 + p`), so the sum over the columns
  is the reference's contraction reindexed.
-/
import proofs.«407369_j88802743812109_3_alg».proof.Proof.KIValDeq
import proofs.«407369_j88802743812109_3_alg».proof.Proof.KIValMm
import proofs.«407369_j88802743812109_3_alg».proof.Proof.Gen.ReferenceIdeal.Read
import Idealize.ShloMosaic.Lib.StableHlo.Run
import Idealize.ShloMosaic.Lib.Pipeline.Value
import Idealize.ShloMosaic.Lib.ValueLayout
import Mathlib.Algebra.BigOperators.Group.Finset.Defs

set_option maxRecDepth 16384

noncomputable section

namespace Cert.KernelIdeal.Val

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen Cert.KernelIdeal.Hand

variable (m : (ℓ : Loc nD τ sig) → Buf (Elt Ideal) ℓ) (c : Dev nD)

/-! ## The arguments as region 1's host stretch finds them -/

/-- Region 0 and the first host stretch leave the input argument as launched. -/
theorem W2_argX : (W2 m c (Proc.devRef .tc main_arg0) : S4096x8192.Idx → EReal) = argX m c := by
  rw [W2_of_ne m c main_arg0 (by decide)]
  show StableHlo.after hostOps0 (W0 m c) (Proc.devRef .tc main_arg0) = _
  after_results

/-- … and the bias argument. -/
theorem W2_argB : (W2 m c (Proc.devRef .tc main_arg3) : S8192.Idx → EReal) = argB m c := by
  rw [W2_of_ne m c main_arg3 (by decide)]
  show StableHlo.after hostOps0 (W0 m c) (Proc.devRef .tc main_arg3) = _
  after_results

/-- The array region 0 leaves in its output window. -/
abbrev deqArr : S8192x32x256.Idx → EReal := (dat0 (F := Ideal) (V1 m) c).arrAt 2 cfg0.N

theorem W2_deq : (W2 m c (Proc.devRef .tc main_v1) : S8192x32x256.Idx → EReal) = deqArr m c :=
  W2_arr m c 2

/-! ## The three arrays region 1 finds, as terms of the arguments -/

theorem bias_term :
    (biasArr (V3 m) c : S1x8192.Idx → EReal) = shapeCast S1x8192 (argB m c) shapeCasts_S8192_S1x8192 := by
  show StableHlo.after hostOps1 (W2 m c) (Proc.devRef .tc main_v7) = _
  after_results
  rw [W2_argB]
  rfl

theorem rhs_term :
    (rhsArr (V3 m) c : S8192x8192.Idx → EReal) = shapeCast S8192x8192 (deqArr m c) shapeCasts_S8192x32x256_S8192x8192 := by
  show StableHlo.after hostOps1 (W2 m c) (Proc.devRef .tc main_v2) = _
  after_results
  rw [W2_deq]
  rfl

theorem lhs_term :
    (lhsArr (V3 m) c : S4096x8192.Idx → EReal)
      = shapeCast S4096x8192
          (transpose S4096x32x256 [0, 2, 1]
            (shapeCast S4096x256x32 (truncf .bf16 (argX m c : FVec Ideal S4096x8192 .f32) bitsLt_bf16_f32 : FVec Ideal S4096x8192 .bf16) shapeCasts_S4096x8192_S4096x256x32)
            transposes_S4096x256x32_S4096x32x256_0_2_1)
          shapeCasts_S4096x32x256_S4096x8192 := by
  show StableHlo.after hostOps1 (W2 m c) (Proc.devRef .tc main_v6) = _
  after_results
  rw [W2_argX]
  rfl

/-! ## The column permutation -/

/-- Column `p·256 + b` of the laid-out operands holds the natural column `b·32 + p`: a bijection of the 8192 columns,
    its inverse sending `b·32 + p` back to `p·256 + b`. -/
def colPerm : Fin 8192 ≃ Fin 8192 where
  toFun i := ⟨(i.val % 256) * 32 + i.val / 256, by omega⟩
  invFun i := ⟨(i.val % 32) * 256 + i.val / 32, by omega⟩
  left_inv i := Fin.ext (by show ((i.val % 256) * 32 + i.val / 256) % 32 * 256 + ((i.val % 256) * 32 + i.val / 256) / 32 = i.val; omega)
  right_inv i := Fin.ext (by show ((i.val % 32) * 256 + i.val / 32) % 256 * 32 + ((i.val % 32) * 256 + i.val / 32) / 256 = i.val; omega)

/-! ## The three arrays read at an index -/

/-- The bias row at column `o` is the bias argument at `o`. -/
theorem bias_read (o : Fin 8192) : biasArr (V3 m) c (ix2 (0 : Fin 1) o) = argB m c (ix1 o) := by
  rw [bias_term]
  exact shapeCast_a_1a_apply _ _ _ _

/-- The right operand at (o, i') is the reference's dequantized weight matrix at (o, the natural column of i'). -/
theorem rhs_read (o i' : Fin 8192) :
    rhsArr (V3 m) c (ix2 o i')
      = Cert.ReferenceIdeal.Read.val_main_v13 (F := Ideal) (argQ m c) (argS m c) (ix2 o (colPerm i')) := by
  rw [rhs_term]
  have hi := i'.isLt
  rw [shapeCast_apply (deqArr m c) shapeCasts_S8192x32x256_S8192x8192 (ix2 o i')
    (ix3 o (⟨i'.val / 256, by omega⟩ : Fin 32) (⟨i'.val % 256, by omega⟩ : Fin 256))
    (by rw [Shape.rowMajor_val_three, Shape.rowMajor_val_two]
        show (o.val * 32 + i'.val / 256) * 256 + i'.val % 256 = o.val * 8192 + i'.val
        omega)]
  exact deq_array m c o _ _

/-- The left operand at (n, i') is the input argument at (n, the natural column of i'). -/
theorem lhs_read (n : Fin 4096) (i' : Fin 8192) :
    lhsArr (V3 m) c (ix2 n i') = argX m c (ix2 n (colPerm i')) := by
  rw [lhs_term]
  have hi := i'.isLt
  rw [shapeCast_apply _ shapeCasts_S4096x32x256_S4096x8192 (ix2 n i')
    (ix3 n (⟨i'.val / 256, by omega⟩ : Fin 32) (⟨i'.val % 256, by omega⟩ : Fin 256))
    (by rw [Shape.rowMajor_val_three, Shape.rowMajor_val_two]
        show (n.val * 32 + i'.val / 256) * 256 + i'.val % 256 = n.val * 8192 + i'.val
        omega)]
  rw [transpose_ix3_021_apply]
  rw [shapeCast_apply _ shapeCasts_S4096x8192_S4096x256x32
    (ix3 n (⟨i'.val % 256, by omega⟩ : Fin 256) (⟨i'.val / 256, by omega⟩ : Fin 32)) (ix2 n (colPerm i'))
    (by rw [Shape.rowMajor_val_three, Shape.rowMajor_val_two]
        show n.val * 8192 + ((i'.val % 256) * 32 + i'.val / 256) = (n.val * 256 + i'.val % 256) * 32 + i'.val / 256
        omega)]
  rfl

/-! ## The reference's result term read at an index -/

/-- The reference's result at (n, o): its contraction over the natural columns, plus the bias argument at `o`. -/
theorem ref_read (x : S4096x8192.Idx → EReal) (q : S8192x256x16.Idx → BitVec 32) (s : S8192x256.Idx → EReal)
    (b : S8192.Idx → EReal) (n : Fin 4096) (o : Fin 8192) :
    Cert.ReferenceIdeal.Read.val_main_v17 (F := Ideal) x q s b (ix2 n o)
      = (∑ k : Fin 8192, x (ix2 n k) * Cert.ReferenceIdeal.Read.val_main_v13 (F := Ideal) q s (ix2 o k)) + b (ix1 o) := by
  have el : ∀ k : Fin 8192, Cert.ReferenceIdeal.Read.lidx_main_v14 (ix2 n o) k = ix2 n k := fun k =>
    funext fun a => Fin.ext (by match a with | ⟨0, _⟩ => rfl | ⟨1, _⟩ => rfl)
  have er : ∀ k : Fin 8192, Cert.ReferenceIdeal.Read.ridx_main_v14 (ix2 n o) k = ix2 o k := fun k =>
    funext fun a => Fin.ext (by match a with | ⟨0, _⟩ => rfl | ⟨1, _⟩ => rfl)
  have eb : Cert.ReferenceIdeal.Read.idx_main_v15 (Cert.ReferenceIdeal.Read.idx_main_v16 (ix2 n o)) = ix1 o :=
    funext fun a => Fin.ext (by match a with | ⟨0, _⟩ => rfl)
  rw [Cert.ReferenceIdeal.Read.val_main_v17_apply, Cert.ReferenceIdeal.Read.val_main_v14_apply,
    Cert.ReferenceIdeal.Read.val_main_v16_apply, Cert.ReferenceIdeal.Read.val_main_v15_apply, eb]
  simp only [el, er]
  rfl

/-! ## The bridge -/

theorem kernel_value :
    ((dat1 (F := Ideal) (V3 m) c).arrAt 3 cfg1.N : S4096x8192.Idx → EReal)
      = Cert.ReferenceIdeal.Read.val_main_v17 (F := Ideal) (argX m c) (argQ m c) (argS m c) (argB m c) := by
  funext j
  obtain ⟨n, o, rfl⟩ : ∃ (n : Fin 4096) (o : Fin 8192), j = ix2 n o := ⟨j 0, j 1, eq_ix2 j⟩
  rw [ref_read]
  refine (mm_array (V3 m) c n o).trans ?_
  rw [bias_read]
  congr 1
  rw [← Equiv.sum_comp colPerm
    (fun k : Fin 8192 => argX m c (ix2 n k) * Cert.ReferenceIdeal.Read.val_main_v13 (F := Ideal) (argQ m c) (argS m c) (ix2 o k))]
  exact Finset.sum_congr rfl fun i' _ => by rw [lhs_read, rhs_read]

end Cert.KernelIdeal.Val

end
-- ==== Proof.lean ====
/-
  The certificate of a 4-bit block-quantized linear layer against its reference: `x · Wᵀ + bias` with
  `W[o, b·32 + p] = (field(q[o, b, p mod 16]) − 8) · s[o, b]`, the field the low half-byte of the packed word for
  `p < 16` and the high one otherwise.

  The kernel program computes it in two pipelined regions. Region 0 unpacks the weights in the layout
  [row, position, block], i.e. with the columns permuted (column `p·256 + b` holds the natural column `b·32 + p`);
  the host lays the input's columns out by the same permutation; region 1 contracts the two along the permuted
  columns, four stretches of 2048 columns accumulated one grid point after the other from zero, and adds the bias at
  the last stretch. The reference contracts along the natural columns in one sum. Over the extended reals the two
  agree by commutativity and associativity of the sum alone: the permutation is a bijection of the 8192 columns, the
  four stretches regroup into one sum, and `0 + a = a`; both programs apply the same scalar operations to the same
  packed word and scale. No finiteness of the inputs is used.

  The three frames: each program runs to the end from any memory, and no segment of either writes an argument buffer.
  The idealization rewrote nothing, so `preserves` is trivial.
-/
import proofs.«407369_j88802743812109_3_alg».proof.Defs
import proofs.«407369_j88802743812109_3_alg».proof.Proof.Gen.Kernel
import proofs.«407369_j88802743812109_3_alg».proof.Proof.Gen.KernelIdeal
import proofs.«407369_j88802743812109_3_alg».proof.Proof.Gen.ReferenceIdeal
import proofs.«407369_j88802743812109_3_alg».proof.Proof.Gen.Pre_finite_inputs
import proofs.«407369_j88802743812109_3_alg».proof.Proof.Gen.ReferenceIdeal.Run
import proofs.«407369_j88802743812109_3_alg».proof.Proof.Gen.ReferenceIdeal.Read
import proofs.«407369_j88802743812109_3_alg».proof.Proof.KRun
import proofs.«407369_j88802743812109_3_alg».proof.Proof.KIRun
import proofs.«407369_j88802743812109_3_alg».proof.Proof.KIValGlue
import Idealize.ShloMosaic.Adequacy
import Idealize.ShloMosaic.Init

noncomputable section

namespace Cert.Proof

open Idealize.ShloMosaic Idealize.ShloMosaic.TcCoe Idealize.SL.Sem

/-- The word-level program runs and leaves its arguments as launched: its run with the result dropped. -/
theorem frame_k : Cert.frame_Kernel := fun m ρ _ =>
  (θ_run Cert.Kernel.defs _ _).mono (fun _ h c => (h c).2) (Cert.Kernel.Hand.run_main (F := Bits) m ρ)

/-- The same of the program read over the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result term of the four arguments: the kernel program's result buffer is
    what region 1's write-backs fold to, which is that term (`kernel_value`); the reference's run states it. -/
theorem algebraic : Cert.algebraic_KernelIdeal_ReferenceIdeal := by
  intro m ρ m' ρ' _ hagree
  refine ⟨fun c => (Cert.KernelIdeal.Hand.dat1 (F := Ideal) (Cert.KernelIdeal.Hand.V3 m) c).arrAt 3 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v17_eq]
  exact (Cert.KernelIdeal.Val.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
